-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S128x128 .f32) (main_arg10 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg6 : FVec F S128x128 .f32) (main_arg7 : FVec F S128 .f32) (main_arg8 : FVec F S128x128 .f32) (main_arg9 : FVec F S128x128 .f32) (main_arg10 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S5000x128 : Shape := ⟨2, ![5000, 128]⟩
abbrev S5000x1 : Shape := ⟨2, ![5000, 1]⟩
abbrev S128x1 : Shape := ⟨2, ![128, 1]⟩

abbrev nBuf : Space → Nat
  | .hbm => 78
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .f32⟩
  | .hbm, ⟨34, _⟩ => ⟨S_, .f32⟩
  | .hbm, ⟨35, _⟩ => ⟨S50000x128, .f32⟩
  | .hbm, ⟨36, _⟩ => ⟨S800000x1, .i32⟩
  | .hbm, ⟨37, _⟩ => ⟨S50000x128, .f32⟩
  | .hbm, ⟨38, _⟩ => ⟨S128x128, .f32⟩
  | .hbm, ⟨39, _⟩ => ⟨S128x128, .bf16⟩
  | .hbm, ⟨40, _⟩ => ⟨S128x128, .f32⟩
  | .hbm, ⟨41, _⟩ => ⟨S128x128, .bf16⟩
  | .hbm, ⟨42, _⟩ => ⟨S1x128, .f32⟩
  | .hbm, ⟨43, _⟩ => ⟨S50000x128, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x128, .f32⟩
  | .hbm, ⟨53, _⟩ => ⟨S_, .f32⟩
  | .hbm, ⟨54, _⟩ => ⟨S50000x128, .f32⟩
  | .hbm, ⟨55, _⟩ => ⟨S800000x1, .i32⟩
  | .hbm, ⟨56, _⟩ => ⟨S50000x128, .f32⟩
  | .hbm, ⟨57, _⟩ => ⟨S128x128, .f32⟩
  | .hbm, ⟨58, _⟩ => ⟨S128x128, .bf16⟩
  | .hbm, ⟨59, _⟩ => ⟨S128x128, .f32⟩
  | .hbm, ⟨60, _⟩ => ⟨S128x128, .bf16⟩
  | .hbm, ⟨61, _⟩ => ⟨S1x128, .f32⟩
  | .hbm, ⟨62, _⟩ => ⟨S50000x128, .f32⟩
  | .hbm, ⟨63, _⟩ => ⟨S_, .f32⟩
  | .hbm, ⟨64, _⟩ => ⟨S128x128, .f32⟩
  | .hbm, ⟨65, _⟩ => ⟨S50000x1, .i32⟩
  | .hbm, ⟨66, _⟩ => ⟨S128x128, .f32⟩
  | .hbm, ⟨67, _⟩ => ⟨S_, .f32⟩
  | .hbm, ⟨68, _⟩ => ⟨S50000, .f32⟩
  | .hbm, ⟨69, _⟩ => ⟨S_, .f32⟩
  | .hbm, ⟨70, _⟩ => ⟨S128, .f32⟩
  | .hbm, ⟨71, _⟩ => ⟨S50000x1, .i32⟩
  | .hbm, ⟨72, _⟩ => ⟨S128, .f32⟩
  | .hbm, ⟨73, _⟩ => ⟨S128x1, .f32⟩
  | .hbm, ⟨74, _⟩ => ⟨S128x128, .f32⟩
  | .hbm, ⟨75, _⟩ => ⟨S128x128, .bf16⟩
  | .hbm, ⟨76, _⟩ => ⟨S1x128, .f32⟩
  | .hbm, ⟨77, _⟩ => ⟨S128x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x128, .bf16⟩
  | .local _ .vmem, ⟨7, _⟩ => ⟨S128x128, .bf16⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x1, .f32⟩
  | .local _ .vmem, ⟨14, _⟩ => ⟨S5000x1, .f32⟩
  | .local _ .vmem, ⟨15, _⟩ => ⟨S5000x128, .f32⟩
  | .local _ .vmem, ⟨16, _⟩ => ⟨S5000x128, .f32⟩
  | .local _ .vmem, ⟨17, _⟩ => ⟨S128x128, .bf16⟩
  | .local _ .vmem, ⟨18, _⟩ => ⟨S128x128, .bf16⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128x1, .f32⟩
  | .local _ .vmem, ⟨24, _⟩ => ⟨S128x128, .bf16⟩
  | .local _ .vmem, ⟨25, _⟩ => ⟨S1x128, .f32⟩
  | .local _ .vmem, ⟨26, _⟩ => ⟨S128x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_4 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_6 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_7 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_8 : Ref sig .tc := ⟨.hbm, 67, rfl⟩
abbrev main_v46 : Ref sig .tc := ⟨.hbm, 68, rfl⟩
abbrev main_cst_9 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem1_0 : DmaSem sig := 23
abbrev cc2_sem2_0 : DmaSem sig := 24
abbrev cc2_sem3_0 : DmaSem sig := 25
abbrev cc2_sem4_0 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S128x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S128x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  transposes_S128x128_S128x128_1_0 : S128x128.Transposes [1, 0] S128x128
  bitsLt_bf16_f32 : FTy.bits .bf16 < FTy.bits .f32
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S128x128 : S_.BroadcastsInDim S128x128 (![] : Fin 0 → Fin S128x128.rank)
  bcast_S_S128 : S_.BroadcastsInDim S128 (![] : Fin 0 → Fin S128.rank)
  bcast_S128_S128x1_0 : S128.BroadcastsInDim S128x1 (![0] : Fin 1 → Fin S128x1.rank)
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x128 : S128x1.Broadcasts S128x128
  broadcasts_S1x128_S128x128 : S1x128.Broadcasts S128x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  scatter_S128x128_S50000x1_S50000x128_1_0_0_1_wf : ScatterDims.WF S128x128 S50000x1 S50000x128 [1] [0] [0] 1
  scatter_S128_S50000x1_S50000_n_0_0_1_wf : ScatterDims.WF S128 S50000x1 S50000 [] [0] [0] 1
  dot_S128x128_S128x128_S128x128_1_0_0_1_n_n_wf : DotDims.WF S128x128 S128x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S128x128.size a ≤ S128x128.size a
  hwx2_0 : ∀ i : grid2.Coords, EltTy.bits .f32 = 32 ∨ (Rect.block (s := S128x128) S128x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x1.size a ≤ S128x1.size a
  hwx2_1 : ∀ i : grid2.Coords, EltTy.bits .f32 = 32 ∨ (Rect.block (s := S128x1) S128x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .bf16 = 32 ∨ (Rect.block (s := S128x128) S128x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf

abbrev win0_0 : Pipeline.Window sig grid0 :=
  Pipeline.Window.ofSpec (Memref.whole main_v20) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v36) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v38) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v42) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v45) S128x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v50) S128x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v54) S128x128.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S128x1 : Shape := ⟨2, ![128, 1]⟩

abbrev nBuf : Space → Nat
  | .hbm => 108
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S_, .f32⟩
  | .hbm, ⟨25, _⟩ => ⟨S50000x128, .f32⟩
  | .hbm, ⟨26, _⟩ => ⟨S800000x1, .i32⟩
  | .hbm, ⟨27, _⟩ => ⟨S50000x128, .f32⟩
  | .hbm, ⟨28, _⟩ => ⟨S_, .f32⟩
  | .hbm, ⟨29, _⟩ => ⟨S800000, .f32⟩
  | .hbm, ⟨30, _⟩ => ⟨S_, .f32⟩
  | .hbm, ⟨31, _⟩ => ⟨S50000, .f32⟩
  | .hbm, ⟨32, _⟩ => ⟨S800000x1, .i32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S128x128, .f32⟩
  | .hbm, ⟨41, _⟩ => ⟨S50000x128, .f32⟩
  | .hbm, ⟨42, _⟩ => ⟨S1x128, .f32⟩
  | .hbm, ⟨43, _⟩ => ⟨S50000x128, .f32⟩
  | .hbm, ⟨44, _⟩ => ⟨S50000x128, .f32⟩
  | .hbm, ⟨45, _⟩ => ⟨S128x128, .f32⟩
  | .hbm, ⟨46, _⟩ => ⟨S50000x128, .f32⟩
  | .hbm, ⟨47, _⟩ => ⟨S50000x128, .f32⟩
  | .hbm, ⟨48, _⟩ => ⟨S_, .f32⟩
  | .hbm, ⟨49, _⟩ => ⟨S50000x128, .f32⟩
  | .hbm, ⟨50, _⟩ => ⟨S50000x128, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x128, .f32⟩
  | .hbm, ⟨60, _⟩ => ⟨S_, .f32⟩
  | .hbm, ⟨61, _⟩ => ⟨S50000x128, .f32⟩
  | .hbm, ⟨62, _⟩ => ⟨S800000x1, .i32⟩
  | .hbm, ⟨63, _⟩ => ⟨S50000x128, .f32⟩
  | .hbm, ⟨64, _⟩ => ⟨S_, .f32⟩
  | .hbm, ⟨65, _⟩ => ⟨S800000, .f32⟩
  | .hbm, ⟨66, _⟩ => ⟨S_, .f32⟩
  | .hbm, ⟨67, _⟩ => ⟨S50000, .f32⟩
  | .hbm, ⟨68, _⟩ => ⟨S800000x1, .i32⟩
  | .hbm, ⟨69, _⟩ => ⟨S50000, .f32⟩
  | .hbm, ⟨70, _⟩ => ⟨S_, .f32⟩
  | .hbm, ⟨71, _⟩ => ⟨S50000, .f32⟩
  | .hbm, ⟨72, _⟩ => ⟨S50000, .f32⟩
  | .hbm, ⟨73, _⟩ => ⟨S50000x1, .f32⟩
  | .hbm, ⟨74, _⟩ => ⟨S50000x128, .f32⟩
  | .hbm, ⟨75, _⟩ => ⟨S50000x128, .f32⟩
  | .hbm, ⟨76, _⟩ => ⟨S128x128, .f32⟩
  | .hbm, ⟨77, _⟩ => ⟨S50000x128, .f32⟩
  | .hbm, ⟨78, _⟩ => ⟨S1x128, .f32⟩
  | .hbm, ⟨79, _⟩ => ⟨S50000x128, .f32⟩
  | .hbm, ⟨80, _⟩ => ⟨S50000x128, .f32⟩
  | .hbm, ⟨81, _⟩ => ⟨S128x128, .f32⟩
  | .hbm, ⟨82, _⟩ => ⟨S50000x128, .f32⟩
  | .hbm, ⟨83, _⟩ => ⟨S50000x128, .f32⟩
  | .hbm, ⟨84, _⟩ => ⟨S_, .f32⟩
  | .hbm, ⟨85, _⟩ => ⟨S50000x128, .f32⟩
  | .hbm, ⟨86, _⟩ => ⟨S50000x128, .f32⟩
  | .hbm, ⟨87, _⟩ => ⟨S_, .f32⟩
  | .hbm, ⟨88, _⟩ => ⟨S128x128, .f32⟩
  | .hbm, ⟨89, _⟩ => ⟨S50000x1, .i32⟩
  | .hbm, ⟨90, _⟩ => ⟨S128x128, .f32⟩
  | .hbm, ⟨91, _⟩ => ⟨S_, .f32⟩
  | .hbm, ⟨92, _⟩ => ⟨S50000, .f32⟩
  | .hbm, ⟨93, _⟩ => ⟨S_, .f32⟩
  | .hbm, ⟨94, _⟩ => ⟨S128, .f32⟩
  | .hbm, ⟨95, _⟩ => ⟨S50000x1, .i32⟩
  | .hbm, ⟨96, _⟩ => ⟨S128, .f32⟩
  | .hbm, ⟨97, _⟩ => ⟨S_, .f32⟩
  | .hbm, ⟨98, _⟩ => ⟨S128, .f32⟩
  | .hbm, ⟨99, _⟩ => ⟨S128, .f32⟩
  | .hbm, ⟨100, _⟩ => ⟨S128x1, .f32⟩
  | .hbm, ⟨101, _⟩ => ⟨S128x128, .f32⟩
  | .hbm, ⟨102, _⟩ => ⟨S128x128, .f32⟩
  | .hbm, ⟨103, _⟩ => ⟨S128x128, .f32⟩
  | .hbm, ⟨104, _⟩ => ⟨S128x128, .f32⟩
  | .hbm, ⟨105, _⟩ => ⟨S1x128, .f32⟩
  | .hbm, ⟨106, _⟩ => ⟨S128x128, .f32⟩
  | .hbm, ⟨107, _⟩ => ⟨S128x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call0_cst : Ref sig .tc := ⟨.hbm, 48, rfl⟩
abbrev main_call0_v0 : Ref sig .tc := ⟨.hbm, 49, rfl⟩
abbrev main_v31 : Ref sig .tc := ⟨.hbm, 50, rfl⟩
abbrev main_c_4 : Ref sig .tc := ⟨.hbm, 51, rfl⟩
abbrev main_v32 : Ref sig .tc := ⟨.hbm, 52, rfl⟩
abbrev main_v33 : Ref sig .tc := ⟨.hbm, 53, rfl⟩
abbrev main_c_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_6 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_call1_cst : Ref sig .tc := ⟨.hbm, 84, rfl⟩
abbrev main_call1_v0 : Ref sig .tc := ⟨.hbm, 85, rfl⟩
abbrev main_v59 : Ref sig .tc := ⟨.hbm, 86, rfl⟩
abbrev main_cst_10 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_11 : Ref sig .tc := ⟨.hbm, 91, rfl⟩
abbrev main_v63 : Ref sig .tc := ⟨.hbm, 92, rfl⟩
abbrev main_cst_12 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_13 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128x128 : S_.BroadcastsInDim S128x128 (![] : Fin 0 → Fin S128x128.rank)
  bcast_S_S128 : S_.BroadcastsInDim S128 (![] : Fin 0 → Fin S128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  scatter_S128x128_S50000x1_S50000x128_1_0_0_1_wf : ScatterDims.WF S128x128 S50000x1 S50000x128 [1] [0] [0] 1
  scatter_S128_S50000x1_S50000_n_0_0_1_wf : ScatterDims.WF S128 S50000x1 S50000 [] [0] [0] 1
  dot_S128x128_S128x128_S128x128_1_0_0_1_n_n_wf : DotDims.WF S128x128 S128x128 S128x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf

class Facts : Prop extends Facts₀ where

variable [Facts]
-- ==== Proof.Spec.lean ====
/-
  What the two dense kernels compute, entry by entry on the extended reals.

  `sageRows R`: one mean-aggregation SAGE layer on `R` rows of 128 features. Row `p` of the neighbour sums `agg` is divided
  by that row's degree `deg (p, 0)`, multiplied into the weight `wl` (128 × 128, already transposed: `wl (k, q)`), the root
  features' row `p` is multiplied into `wr`, the two products are added, then the bias `b (0, q)`, and the result is clamped
  below at zero:   max ((Σₖ agg(p,k) / deg(p,0) · wl(k,q)  +  Σₖ root(p,k) · wr(k,q))  +  b(0,q)) 0.
  The same function at `R = 5000` is what one grid point computes from its blocks, and at `R = 50000` what the layer computes
  from the whole arrays: a row of the result depends on that row of `agg`, `deg`, `root` only.

  `poolRows`: the mean pool and the classifier on 128 graphs: row `p` of the per-graph sums `gsum` divided by
  `max (gcnt (p, 0)) 1`, multiplied into `w`, plus the bias:   Σₖ gsum(p,k) / max(gcnt(p,0), 1) · w(k,q)  +  b(0,q).

  The zero and the one are kept as the float words the programs spell (both programs spell the same words).
-/
import Idealize.ShloMosaic.Lib.ValueIdx
import Idealize.ShloMosaic.PureOps.Ideal

noncomputable section

open scoped BigOperators

namespace Cert.Sage

open Idealize.ShloMosaic Idealize.ShloMosaic.ValueIdx

/-- One SAGE layer on `R` rows, at entry `(p, q)`. -/
def sageAt {R : ℕ} (agg : (⟨2, ![R, 128]⟩ : Shape).Idx → EReal) (deg : (⟨2, ![R, 1]⟩ : Shape).Idx → EReal)
    (root : (⟨2, ![R, 128]⟩ : Shape).Idx → EReal) (wl wr : (⟨2, ![128, 128]⟩ : Shape).Idx → EReal)
    (b : (⟨2, ![1, 128]⟩ : Shape).Idx → EReal) (p : Fin R) (q : Fin 128) : EReal :=
  max (((∑ k : Fin 128, Ideal.div (agg (ix2 p k)) (deg (ix2 p (0 : Fin 1))) * wl (ix2 k q))
      + ∑ k : Fin 128, root (ix2 p k) * wr (ix2 k q)) + b (ix2 (0 : Fin 1) q)) (Ideal.ofBits .f32 0x00000000#32)

/-- One SAGE layer on `R` rows, as an array. -/
def sageRows (R : ℕ) (agg : (⟨2, ![R, 128]⟩ : Shape).Idx → EReal) (deg : (⟨2, ![R, 1]⟩ : Shape).Idx → EReal)
    (root : (⟨2, ![R, 128]⟩ : Shape).Idx → EReal) (wl wr : (⟨2, ![128, 128]⟩ : Shape).Idx → EReal)
    (b : (⟨2, ![1, 128]⟩ : Shape).Idx → EReal) : (⟨2, ![R, 128]⟩ : Shape).Idx → EReal :=
  fun i => sageAt agg deg root wl wr b (i 0) (i 1)

theorem sageRows_apply {R : ℕ} (agg : (⟨2, ![R, 128]⟩ : Shape).Idx → EReal) (deg : (⟨2, ![R, 1]⟩ : Shape).Idx → EReal)
    (root : (⟨2, ![R, 128]⟩ : Shape).Idx → EReal) (wl wr : (⟨2, ![128, 128]⟩ : Shape).Idx → EReal)
    (b : (⟨2, ![1, 128]⟩ : Shape).Idx → EReal) (p : Fin R) (q : Fin 128) :
    sageRows R agg deg root wl wr b (ix2 p q) = sageAt agg deg root wl wr b p q := rfl

/-- The mean pool and the classifier, at entry `(p, q)`. -/
def poolAt (gsum : (⟨2, ![128, 128]⟩ : Shape).Idx → EReal) (gcnt : (⟨2, ![128, 1]⟩ : Shape).Idx → EReal)
    (w : (⟨2, ![128, 128]⟩ : Shape).Idx → EReal) (b : (⟨2, ![1, 128]⟩ : Shape).Idx → EReal) (p q : Fin 128) : EReal :=
  (∑ k : Fin 128, Ideal.div (gsum (ix2 p k)) (max (gcnt (ix2 p (0 : Fin 1))) (Ideal.ofBits .f32 0x3F800000#32)) * w (ix2 k q))
    + b (ix2 (0 : Fin 1) q)

/-- The mean pool and the classifier, as an array. -/
def poolRows (gsum : (⟨2, ![128, 128]⟩ : Shape).Idx → EReal) (gcnt : (⟨2, ![128, 1]⟩ : Shape).Idx → EReal)
    (w : (⟨2, ![128, 128]⟩ : Shape).Idx → EReal) (b : (⟨2, ![1, 128]⟩ : Shape).Idx → EReal) :
    (⟨2, ![128, 128]⟩ : Shape).Idx → EReal :=
  fun i => poolAt gsum gcnt w b (i 0) (i 1)

theorem poolRows_apply (gsum : (⟨2, ![128, 128]⟩ : Shape).Idx → EReal) (gcnt : (⟨2, ![128, 1]⟩ : Shape).Idx → EReal)
    (w : (⟨2, ![128, 128]⟩ : Shape).Idx → EReal) (b : (⟨2, ![1, 128]⟩ : Shape).Idx → EReal) (p q : Fin 128) :
    poolRows gsum gcnt w b (ix2 p q) = poolAt gsum gcnt w b p q := rfl

end Cert.Sage

end
-- ==== Proof.LibPlainDot.lean ====
/-
  A plain matrix product read at an entry, on the extended reals.

  For the dimension numbers of an `R × K` by `K × C` product (the left operand contracted on its axis 1, the right on its
  axis 0, no batch axis: `DotDims.plain R K C`), the sum over the contraction index that the ideal `tpu.matmul` and the host's
  `dot_general` both are at an output entry `(p, q)` is the textbook sum over `k : Fin K` of `l (p, k) · r (k, q)`.
  Stated at coordinates, so that it rewrites a term at `ix2 p q` whatever the literal extents.
-/
import Idealize.ShloMosaic.Lib.ValueIdx
import Idealize.ShloMosaic.PureOps.Ideal.Laws

noncomputable section

open scoped BigOperators

namespace Cert.PlainDot

open Idealize.ShloMosaic Idealize.ShloMosaic.ValueIdx

variable {R K C : ℕ}

/-- The contraction of a plain product has one axis, of extent `K`. -/
theorem contr_rank : (DotDims.plain R K C).contr.rank = 1 := rfl
theorem contr_size : (DotDims.plain R K C).contr.size ⟨0, by rw [contr_rank]; exact Nat.one_pos⟩ = K := rfl

/-- The operands' entries that meet at output entry `(p, q)` and contraction position `k` are `(p, k)` and `(k, q)`. -/
theorem lhsIdx_eq (p : Fin R) (q : Fin C) (k : Fin K) :
    (DotDims.plain R K C).lhsIdx (ix2 p q) ((contrEquiv1 (DotDims.plain R K C) K contr_rank contr_size).symm k) = ix2 p k := by
  have hk := contrEquiv1_symm_val (DotDims.plain R K C) K contr_rank contr_size k
  funext a; apply Fin.ext
  match a with
  | ⟨0, _⟩ => rfl
  | ⟨1, _⟩ => exact ((DotDims.plain R K C).lhsIdx_val_of_single (cl := 1) rfl (ix2 p q) _).trans hk

theorem rhsIdx_eq (p : Fin R) (q : Fin C) (k : Fin K) :
    (DotDims.plain R K C).rhsIdx (ix2 p q) ((contrEquiv1 (DotDims.plain R K C) K contr_rank contr_size).symm k) = ix2 k q := by
  have hk := contrEquiv1_symm_val (DotDims.plain R K C) K contr_rank contr_size k
  funext a; apply Fin.ext
  match a with
  | ⟨0, _⟩ => exact ((DotDims.plain R K C).rhsIdx_val_of_single (cr := 0) rfl (ix2 p q) _).trans hk
  | ⟨1, _⟩ => rfl

/-- The contraction sum at `(p, q)` is the sum over `k : Fin K` of `l (p, k) · r (k, q)`. -/
theorem sum_eq (l : (⟨2, ![R, K]⟩ : Shape).Idx → EReal) (r : (⟨2, ![K, C]⟩ : Shape).Idx → EReal) (p : Fin R) (q : Fin C) :
    ∑ k : (DotDims.plain R K C).contr.Idx, l ((DotDims.plain R K C).lhsIdx (ix2 p q) k) * r ((DotDims.plain R K C).rhsIdx (ix2 p q) k)
      = ∑ k : Fin K, l (ix2 p k) * r (ix2 k q) := by
  rw [← Equiv.sum_comp (contrEquiv1 (DotDims.plain R K C) K contr_rank contr_size).symm]
  exact Finset.sum_congr rfl fun k _ => by rw [lhsIdx_eq, rhsIdx_eq]

/-- A `tpu.matmul` into the zero accumulator, read at `(p, q)`. -/
theorem matmul_zero_apply {φ₁ φ₂ : FTy} (prec : Option ContractPrecision)
    (l : FVec Ideal (⟨2, ![R, K]⟩ : Shape) φ₁) (r : FVec Ideal (⟨2, ![K, C]⟩ : Shape) φ₂) (p : Fin R) (q : Fin C) :
    FloatOps.matmul (DotDims.plain R K C) prec l r (constant (⟨2, ![R, C]⟩ : Shape) .f32 0x00000000#32) (ix2 p q)
      = ∑ k : Fin K, l (ix2 p k) * r (ix2 k q) := by
  rw [Ideal.matmul_constant_zero_apply]
  exact sum_eq l r p q

/-- The host's `dot_general`, read at `(p, q)`. -/
theorem dotGeneral_apply {φ₁ φ₂ : FTy} (prec : Option ContractPrecision) (sched : HostSchedule)
    (l : FVec Ideal (⟨2, ![R, K]⟩ : Shape) φ₁) (r : FVec Ideal (⟨2, ![K, C]⟩ : Shape) φ₂) (p : Fin R) (q : Fin C) :
    FloatOps.dotGeneral (DotDims.plain R K C) prec sched l r (ix2 p q) = ∑ k : Fin K, l (ix2 p k) * r (ix2 k q) := by
  rw [Ideal.dotGeneral_apply]
  exact sum_eq l r p q

end Cert.PlainDot

end
-- ==== Proof.LibRowOps.lean ====
/-
  A lane reduction kept as a column, and a column spread back over the lanes, read at an index on the extended reals.

  For a rank-2 vector `v` of `R` rows and `C` lanes: the sum (or, from a given word, the maximum) of each row over its lanes,
  cast from `[R]` to the column shape `[R, 1]`, holds at `(p, q)` the sum (the maximum) of row `p`; a column `[R, 1]` broadcast
  to `[R, C]` holds at `(p, k)` the column's entry of row `p`. The host's forms of the same (a `reduce` over axis 1, a
  `broadcast_in_dim` on axis 0 or on both axes) read likewise. All are stated at coordinates `p : Fin R`, `k : Fin C`, so that
  they rewrite a term at `ix2 p k` whatever the literal extents.
-/
import Idealize.ShloMosaic.Lib.ValueIdx
import Idealize.ShloMosaic.Lib.Pipeline.Value
import Idealize.ShloMosaic.PureOps.Ideal.Laws
import Idealize.ShloMosaic.PureOps.Reduce

noncomputable section

open scoped BigOperators

namespace Cert.RowOps

open Idealize.ShloMosaic Idealize.ShloMosaic.ValueIdx

variable {R C : ℕ}

/-- The exponential, the square root and the absolute value of a vector read entry by entry. -/
theorem exp_apply {s : Shape} (v : FVec Ideal s .f32) (i : s.Idx) : exp v i = Ideal.exp (v i) := rfl
theorem sqrt_apply {s : Shape} (v : FVec Ideal s .f32) (i : s.Idx) : sqrt v i = Ideal.sqrt (v i) := rfl
theorem absf_apply {s : Shape} (v : FVec Ideal s .f32) (i : s.Idx) : absf v i = FloatOps.absf (F := Ideal) (φ := .f32) (v i) := rfl

/-- Row `p` with lane `k` put back on axis 1 is the index `(p, k)`. -/
theorem lift_lane (h : (⟨2, ![R, C]⟩ : Shape).Reduces [1] (⟨1, ![R]⟩ : Shape)) (p : Fin R)
    (k : Fin ((⟨2, ![R, C]⟩ : Shape).size 1)) : h.lift (ix1 p) k = ix2 p (⟨k.val, k.isLt⟩ : Fin C) := by
  funext c; apply Fin.ext
  fin_cases c <;> rfl

/-- The column shape's entry `(p, q)` sits at row-major position `p`, as entry `p` of the vector does. -/
theorem col_pos (p : Fin R) (q : Fin 1) :
    ((⟨1, ![R]⟩ : Shape).rowMajor (ix1 p)).val = ((⟨2, ![R, 1]⟩ : Shape).rowMajor (ix2 p q)).val := by
  rw [Shape.rowMajor_val_one, Shape.rowMajor_val_two]
  have := q.isLt
  show p.val = p.val * 1 + q.val
  omega

/-- A vector cast to a column reads, at `(p, q)`, its entry `p`. -/
theorem castCol_apply {α : Type} (x : (⟨1, ![R]⟩ : Shape).Idx → α) (hc : (⟨1, ![R]⟩ : Shape).ShapeCasts (⟨2, ![R, 1]⟩ : Shape))
    (p : Fin R) (q : Fin 1) : shapeCast (⟨2, ![R, 1]⟩ : Shape) x hc (ix2 p q) = x (ix1 p) :=
  shapeCast_apply x hc (ix2 p q) (ix1 p) (col_pos p q)

/-- The lane sum of a vector, read at row `p`. -/
theorem laneSum_apply (v : FVec Ideal (⟨2, ![R, C]⟩ : Shape) .f32) (acc : BitVec 32)
    (h : (⟨2, ![R, C]⟩ : Shape).Reduces [1] (⟨1, ![R]⟩ : Shape)) (hφ : FKind.Formats .f32) (hacc : acc = FKind.add.neutral .f32 hφ)
    (p : Fin R) : multiReduction .add [1] (⟨1, ![R]⟩ : Shape) v acc h hφ hacc (ix1 p) = ∑ k : Fin C, v (ix2 p k) := by
  rw [Ideal.multiReduction_add_single]
  show ∑ k : Fin C, v (h.lift (ix1 p) k) = _
  exact Finset.sum_congr rfl fun k _ => congrArg v (lift_lane h p k)

/-- The lane maximum of a vector from the word `acc`, read at row `p`. -/
theorem laneMax_apply (v : FVec Ideal (⟨2, ![R, C]⟩ : Shape) .f32) (acc : BitVec 32)
    (h : (⟨2, ![R, C]⟩ : Shape).Reduces [1] (⟨1, ![R]⟩ : Shape)) (hφ : FKind.Formats .f32) (hacc : acc = FKind.maximumf.neutral .f32 hφ)
    (p : Fin R) : multiReduction .maximumf [1] (⟨1, ![R]⟩ : Shape) v acc h hφ hacc (ix1 p)
      = (Finset.univ : Finset (Fin C)).fold max (Ideal.ofBits .f32 acc) (fun k => v (ix2 p k)) := by
  rw [Ideal.multiReduction_maximumf_single]
  show (Finset.univ : Finset (Fin C)).fold max (Ideal.ofBits .f32 acc) (v ∘ h.lift (ix1 p)) = _
  exact congrArg (fun f => (Finset.univ : Finset (Fin C)).fold max (Ideal.ofBits .f32 acc) f)
    (funext fun k => congrArg v (lift_lane h p k))

/-- A column spread over the lanes reads, at `(p, k)`, the column's entry of row `p`. -/
theorem spreadCol_apply {α : Type} (col : (⟨2, ![R, 1]⟩ : Shape).Idx → α)
    (hb : (⟨2, ![R, 1]⟩ : Shape).Broadcasts (⟨2, ![R, C]⟩ : Shape)) (p : Fin R) (k : Fin C) :
    broadcastTo (⟨2, ![R, C]⟩ : Shape) col hb (ix2 p k) = col (ix2 p (0 : Fin 1)) :=
  broadcastTo_apply col hb (ix2 p k) (ix2 p (0 : Fin 1)) (fun a => by
    match a with
    | ⟨0, _⟩ =>
      show p.val = if R = 1 then 0 else p.val
      split
      · have := p.isLt; omega
      · rfl
    | ⟨1, _⟩ =>
      show (0 : Fin 1).val = if (1 : ℕ) = 1 then 0 else k.val
      simp)

/-- The host's reduce with a maximum body over the lanes, from the rank-zero initial value, read at row `p`. -/
theorem hostLaneMax_apply {u : Shape} (x : FVec Ideal (⟨2, ![R, C]⟩ : Shape) .f32) (init : u.Idx → Ideal .f32)
    (h' : (⟨2, ![R, C]⟩ : Shape).ReducesTo [1] (⟨1, ![R]⟩ : Shape)) (h : (⟨2, ![R, C]⟩ : Shape).Reduces [1] (⟨1, ![R]⟩ : Shape))
    (hu : 0 < u.numel) (p : Fin R) :
    Host.reduce FloatOps.maximumf x init h' hu (ix1 p)
      = (Finset.univ : Finset (Fin C)).fold max (init (Shape.Idx.first hu)) (fun k => x (ix2 p k)) := by
  rw [Host.reduce_eq_fold_single FloatOps.maximumf x init h' h hu]
  show (Finset.univ : Finset (Fin C)).fold max (init (Shape.Idx.first hu)) (x ∘ h.lift (ix1 p)) = _
  exact congrArg (fun f => (Finset.univ : Finset (Fin C)).fold max (init (Shape.Idx.first hu)) f)
    (funext fun k => congrArg x (lift_lane h p k))

end Cert.RowOps

end
-- ==== Proof.KPayload.lean ====
/-
  What each kernel body stores is the specification's function of the blocks it loads.

  The SAGE kernel's body divides the block of neighbour sums by the degree column spread over the lanes, multiplies the
  quotient (its change of float format is the identity on the extended reals) into the loaded 128 × 128 weight with a zero
  accumulator, does the same with the root block and the second weight, adds the two products, adds the bias row spread over
  the rows, and clamps below at zero. Read at entry `(p, q)` of the 5000 × 128 block: the two products are sums over
  `k : Fin 128`, the spread column reads `deg (p, 0)`, the spread row reads `b (0, q)`: that is `Cert.Sage.sageAt`.
  The pool kernel's body clamps the count column at one, spreads it, divides, multiplies into the weight and adds the bias
  row: `Cert.Sage.poolAt`.
-/
import proofs.«110979_j39977555591470_1_alg».proof.Proof.Gen.KernelIdeal.Skeleton
import proofs.«110979_j39977555591470_1_alg».proof.Proof.Spec
import proofs.«110979_j39977555591470_1_alg».proof.Proof.LibPlainDot
import proofs.«110979_j39977555591470_1_alg».proof.Proof.LibRowOps
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The printed dimension numbers of the block product are the plain `5000 × 128` by `128 × 128` ones. -/
theorem dot5000_eq : dot_S5000x128_S128x128_S5000x128_1_0_0_1_n_n = DotDims.plain 5000 128 128 := rfl
theorem dot128_eq : dot_S128x128_S128x128_S128x128_1_0_0_1_n_n = DotDims.plain 128 128 128 := rfl

/-- A block product into the zero accumulator, at entry `(p, q)`. -/
theorem matmul5000_apply (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  rw [dot5000_eq]
  exact Cert.PlainDot.matmul_zero_apply none l r p q

theorem matmul128_apply (l : FVec Ideal S128x128 .bf16) (r : FVec Ideal S128x128 .bf16) (p q : Fin 128) :
    matmul dot_S128x128_S128x128_S128x128_1_0_0_1_n_n none l r (constant (F := Ideal) S128x128 .f32 0x00000000#32) (ix2 p q)
      = ∑ k : Fin 128, l (ix2 p k) * r (ix2 k q) := by
  rw [dot128_eq]
  exact Cert.PlainDot.matmul_zero_apply none l r p q

/-- What the first layer's body stores, from the blocks it loads. -/
theorem k0_pay1_eq (x0 : Vec Ideal S5000x128 .f32) (x1 : Vec Ideal S5000x1 .f32) (x2 : Vec Ideal S5000x128 .f32)
    (x3 x4 : Vec Ideal S128x128 .bf16) (x5 : Vec Ideal S1x128 .f32) :
    k0_pay1 (F := Ideal) x0 x1 x2 x3 x4 x5 = Cert.Sage.sageRows 5000 x0 x1 x2 x3 x4 x5 := by
  funext i
  obtain ⟨p, q, rfl⟩ : ∃ (p : Fin 5000) (q : Fin 128), i = ix2 p q := ⟨i 0, i 1, eq_ix2 i⟩
  rw [Cert.Sage.sageRows_apply]
  unfold k0_pay1 Cert.Sage.sageAt
  simp only [shapeCast_self, maximumf_apply, addf_apply, broadcast_apply, matmul5000_apply, broadcastTo_1b_ab_apply,
    truncf_apply, divf_apply, Cert.RowOps.spreadCol_apply, Ideal.ofBits_def]

/-- What the second layer's body stores: the same function (its root block passes through one more identity cast). -/
theorem k1_pay1_eq (x0 : Vec Ideal S5000x128 .f32) (x1 : Vec Ideal S5000x1 .f32) (x2 : Vec Ideal S5000x128 .f32)
    (x3 x4 : Vec Ideal S128x128 .bf16) (x5 : Vec Ideal S1x128 .f32) :
    k1_pay1 (F := Ideal) x0 x1 x2 x3 x4 x5 = Cert.Sage.sageRows 5000 x0 x1 x2 x3 x4 x5 := by
  funext i
  obtain ⟨p, q, rfl⟩ : ∃ (p : Fin 5000) (q : Fin 128), i = ix2 p q := ⟨i 0, i 1, eq_ix2 i⟩
  rw [Cert.Sage.sageRows_apply]
  unfold k1_pay1 Cert.Sage.sageAt
  simp only [shapeCast_self, maximumf_apply, addf_apply, broadcast_apply, matmul5000_apply, broadcastTo_1b_ab_apply,
    truncf_apply, divf_apply, Cert.RowOps.spreadCol_apply, Ideal.ofBits_def]

/-- What the pool kernel's body stores, from the per-graph sums, the count column, the weight and the bias row. -/
theorem k2_pay1_eq (x0 : Vec Ideal S128x128 .f32) (x1 : Vec Ideal S128x1 .f32) (x2 : Vec Ideal S128x128 .bf16)
    (x3 : Vec Ideal S1x128 .f32) :
    k2_pay1 (F := Ideal) x0 x1 x2 x3 = Cert.Sage.poolRows x0 x1 x2 x3 := by
  funext i
  obtain ⟨p, q, rfl⟩ : ∃ (p : Fin 128) (q : Fin 128), i = ix2 p q := ⟨i 0, i 1, eq_ix2 i⟩
  rw [Cert.Sage.poolRows_apply]
  unfold k2_pay1 Cert.Sage.poolAt
  simp only [shapeCast_self, maximumf_apply, addf_apply, broadcast_apply, matmul128_apply, broadcastTo_1b_ab_apply,
    truncf_apply, divf_apply, Cert.RowOps.spreadCol_apply, Ideal.ofBits_def]

end Cert.KernelIdeal.Payload

end
-- ==== Proof.KRegion0.lean ====
/-
  The first layer's pallas_call, whole: the array it leaves is the layer's function of the arrays it finds.

  The grid has ten points; point `t` loads rows `5000 t … 5000 t + 4999` of the neighbour sums, of the degree column and of
  the root features, the two weights and the bias row whole, and writes rows `5000 t … 5000 t + 4999` of the result. A row of
  `Cert.Sage.sageRows` depends on that row only, so what point `t` writes back is block `t` of `sageRows 50000` of the whole
  arrays; the ten blocks tile the 50000 rows (row `r` lies in block `r / 5000`), so the array ends holding `sageRows 50000`.
-/
import proofs.«110979_j39977555591470_1_alg».proof.Proof.KernelIdealFrame
import proofs.«110979_j39977555591470_1_alg».proof.Proof.KPayload
import Idealize.ShloMosaic.Lib.Pipeline.Value
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.Sage

/-- A row of the layer's function depends on that row of the three row-wise operands only: if row `p` of the blocks is row
    `P` of the arrays, and the weights and the bias row agree, the two functions agree at `(p, q)` and `(P, q)`. -/
theorem sageAt_congr {R R' : ℕ} (a : (⟨2, ![R, 128]⟩ : Shape).Idx → EReal) (d : (⟨2, ![R, 1]⟩ : Shape).Idx → EReal)
    (x : (⟨2, ![R, 128]⟩ : Shape).Idx → EReal) (wl wr : (⟨2, ![128, 128]⟩ : Shape).Idx → EReal)
    (b : (⟨2, ![1, 128]⟩ : Shape).Idx → EReal)
    (A : (⟨2, ![R', 128]⟩ : Shape).Idx → EReal) (D : (⟨2, ![R', 1]⟩ : Shape).Idx → EReal)
    (X : (⟨2, ![R', 128]⟩ : Shape).Idx → EReal) (WL WR : (⟨2, ![128, 128]⟩ : Shape).Idx → EReal)
    (B : (⟨2, ![1, 128]⟩ : Shape).Idx → EReal) (p : Fin R) (P : Fin R') (q : Fin 128)
    (ha : ∀ k, a (ix2 p k) = A (ix2 P k)) (hd : d (ix2 p (0 : Fin 1)) = D (ix2 P (0 : Fin 1)))
    (hx : ∀ k, x (ix2 p k) = X (ix2 P k)) (hwl : ∀ k, wl (ix2 k q) = WL (ix2 k q)) (hwr : ∀ k, wr (ix2 k q) = WR (ix2 k q))
    (hb : b (ix2 (0 : Fin 1) q) = B (ix2 (0 : Fin 1) q)) :
    sageAt a d x wl wr b p q = sageAt A D X WL WR B P q := by
  unfold sageAt
  simp only [ha, hd, hx, hwl, hwr, hb]

end Cert.Sage

namespace Cert.KernelIdeal.Region0

open Cert.KernelIdeal Cert.KernelIdeal.Gen Cert.KernelIdeal.GenP

variable (V : (c : Dev nD) → (b : Ref sig .tc) → Buf (Elt Ideal) ((c : Thread nD τ).loc b))

theorem hz : (![0, 0] : Fin 2 → Nat) = fun _ => 0 := funext fun a => by fin_cases a <;> rfl

/-- The arrays the call finds, each at its literal type. -/
abbrev aggArr (c : Dev nD) : Vec Ideal S50000x128 .f32 := V c main_v20
abbrev degArr (c : Dev nD) : Vec Ideal S50000x1 .f32 := V c main_v10
abbrev rootArr (c : Dev nD) : Vec Ideal S50000x128 .f32 := V c main_arg0
abbrev wlArr (c : Dev nD) : Vec Ideal S128x128 .bf16 := V c main_v22
abbrev wrArr (c : Dev nD) : Vec Ideal S128x128 .bf16 := V c main_v24
abbrev bArr (c : Dev nD) : Vec Ideal S1x128 .f32 := V c main_v25

/-- What the call leaves in its result array: the layer's function of the arrays it finds. -/
def result (c : Dev nD) : Vec Ideal S50000x128 .f32 :=
  Cert.Sage.sageRows 50000 (aggArr V c) (degArr V c) (rootArr V c) (wlArr V c) (wrArr V c) (bArr V c)

/-- The printed index maps over the grid: the row-wise windows move with the point, the weights and the bias stay. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of the block of neighbour sums at point `t` is row `5000 t + p` of the array. -/
theorem agg_blk (c : Dev nD) (t : Fin cfg0.N) (p : Fin 5000) (k : Fin 128) (P : Fin 50000) (hP : P.val = 5000 * t.val + p.val) :
    (iblk0 V c 0 t : Vec Ideal S5000x128 .f32) (ix2 p k) = aggArr V c (ix2 P k) := by
  unfold iblk0
  rw [View.read_apply]
  show V c main_v20 _ = V c main_v20 _
  congr 1
  funext a
  apply Fin.ext
  match a with
  | ⟨0, _⟩ => show win0_0.index t (0 : Fin 2) * 5000 + 1 * p.val = P.val; rw [(idx_facts t).1, hP]; omega
  | ⟨1, _⟩ => show win0_0.index t (1 : Fin 2) * 128 + 1 * k.val = k.val; rw [(idx_facts t).2.1]; omega

/-- The degree of row `p` of the block at point `t` is the degree of row `5000 t + p`. -/
theorem deg_blk (c : Dev nD) (t : Fin cfg0.N) (p : Fin 5000) (P : Fin 50000) (hP : P.val = 5000 * t.val + p.val) :
    (iblk0 V c 1 t : Vec Ideal S5000x1 .f32) (ix2 p (0 : Fin 1)) = degArr V c (ix2 P (0 : Fin 1)) := by
  unfold iblk0
  rw [View.read_apply]
  show V c main_v10 _ = V c main_v10 _
  congr 1
  funext a
  apply Fin.ext
  match a with
  | ⟨0, _⟩ => show win0_1.index t (0 : Fin 2) * 5000 + 1 * p.val = P.val; rw [(idx_facts t).2.2.1, hP]; omega
  | ⟨1, _⟩ => show win0_1.index t (1 : Fin 2) * 1 + 1 * 0 = 0; rw [(idx_facts t).2.2.2.1]

/-- Row `p` of the block of root features at point `t` is row `5000 t + p` of the array. -/
theorem root_blk (c : Dev nD) (t : Fin cfg0.N) (p : Fin 5000) (k : Fin 128) (P : Fin 50000) (hP : P.val = 5000 * t.val + p.val) :
    (iblk0 V c 2 t : Vec Ideal S5000x128 .f32) (ix2 p k) = rootArr V c (ix2 P k) := by
  unfold iblk0
  rw [View.read_apply]
  show V c main_arg0 _ = V c main_arg0 _
  congr 1
  funext a
  apply Fin.ext
  match a with
  | ⟨0, _⟩ => show win0_2.index t (0 : Fin 2) * 5000 + 1 * p.val = P.val; rw [(idx_facts t).2.2.2.2.1, hP]; omega
  | ⟨1, _⟩ => show win0_2.index t (1 : Fin 2) * 128 + 1 * k.val = k.val; rw [(idx_facts t).2.2.2.2.2.1]; omega

/-- The weights and the bias row are loaded whole at every point. -/
theorem wl_blk (c : Dev nD) (t : Fin cfg0.N) (k q : Fin 128) :
    (iblk0 V c 3 t : Vec Ideal S128x128 .bf16) (ix2 k q) = wlArr V c (ix2 k q) := by
  unfold iblk0
  rw [View.read_apply]
  show V c main_v22 _ = V c main_v22 _
  congr 1
  funext a
  apply Fin.ext
  match a with
  | ⟨0, _⟩ => show win0_3.index t (0 : Fin 2) * 128 + 1 * k.val = k.val; rw [(idx_facts t).2.2.2.2.2.2.1]; omega
  | ⟨1, _⟩ => show win0_3.index t (1 : Fin 2) * 128 + 1 * q.val = q.val; rw [(idx_facts t).2.2.2.2.2.2.2.1]; omega

theorem wr_blk (c : Dev nD) (t : Fin cfg0.N) (k q : Fin 128) :
    (iblk0 V c 4 t : Vec Ideal S128x128 .bf16) (ix2 k q) = wrArr V c (ix2 k q) := by
  unfold iblk0
  rw [View.read_apply]
  show V c main_v24 _ = V c main_v24 _
  congr 1
  funext a
  apply Fin.ext
  match a with
  | ⟨0, _⟩ => show win0_4.index t (0 : Fin 2) * 128 + 1 * k.val = k.val; rw [(idx_facts t).2.2.2.2.2.2.2.2.1]; omega
  | ⟨1, _⟩ => show win0_4.index t (1 : Fin 2) * 128 + 1 * q.val = q.val; rw [(idx_facts t).2.2.2.2.2.2.2.2.2.1]; omega

theorem b_blk (c : Dev nD) (t : Fin cfg0.N) (q : Fin 128) :
    (iblk0 V c 5 t : Vec Ideal S1x128 .f32) (ix2 (0 : Fin 1) q) = bArr V c (ix2 (0 : Fin 1) q) := by
  unfold iblk0
  rw [View.read_apply]
  show V c main_v25 _ = V c main_v25 _
  congr 1
  funext a
  apply Fin.ext
  match a with
  | ⟨0, _⟩ => show win0_5.index t (0 : Fin 2) * 1 + 1 * 0 = 0; rw [(idx_facts t).2.2.2.2.2.2.2.2.2.2.1]
  | ⟨1, _⟩ => show win0_5.index t (1 : Fin 2) * 128 + 1 * q.val = q.val; rw [(idx_facts t).2.2.2.2.2.2.2.2.2.2.2.1]; omega

/-- What point `t` writes back is block `t` of the layer's function of the whole arrays. -/
theorem flushed_eq (c : Dev nD) (t : Fin cfg0.N) :
    (dat0 V c).flushed 6 t = ((cfg0.win 6).blk t).view.read (Elt Ideal) (result V c) := by
  show (cfg0.win 6).cut (grid0.coords t) ((dat0 V c).after 6 t) = _
  rw [after0_6]
  unfold out0_6
  rw [View.canon_unit_zero hz]
  simp only [View.ld_unit_zero (S := S5000x128) hz, View.ld_unit_zero (S := S5000x1) hz, View.ld_unit_zero (S := S128x128) hz,
    View.ld_unit_zero (S := S1x128) hz]
  rw [Cert.KernelIdeal.Payload.k0_pay1_eq]
  funext j
  rw [View.read_apply]
  have hP : ((((cfg0.win 6).blk t).view.emb j (0 : Fin 2)) : Fin 50000).val = 5000 * t.val + ((j (0 : Fin 2)) : Fin 5000).val := by
    show win0_6.index t (0 : Fin 2) * 5000 + 1 * (j 0).val = _
    rw [(idx_facts t).2.2.2.2.2.2.2.2.2.2.2.2.1]; omega
  have hq : ((((cfg0.win 6).blk t).view.emb j (1 : Fin 2)) : Fin 128) = ((j (1 : Fin 2)) : Fin 128) := Fin.ext (by
    show win0_6.index t (1 : Fin 2) * 128 + 1 * (j 1).val = (j 1).val
    rw [(idx_facts t).2.2.2.2.2.2.2.2.2.2.2.2.2]; omega)
  show Cert.Sage.sageAt (iblk0 V c 0 t : Vec Ideal S5000x128 .f32) (iblk0 V c 1 t : Vec Ideal S5000x1 .f32)
        (iblk0 V c 2 t : Vec Ideal S5000x128 .f32) (iblk0 V c 3 t : Vec Ideal S128x128 .bf16) (iblk0 V c 4 t : Vec Ideal S128x128 .bf16)
        (iblk0 V c 5 t : Vec Ideal S1x128 .f32) (j (0 : Fin 2) : Fin 5000) (j (1 : Fin 2) : Fin 128)
      = Cert.Sage.sageAt (aggArr V c) (degArr V c) (rootArr V c) (wlArr V c) (wrArr V c) (bArr V c)
        (((cfg0.win 6).blk t).view.emb j (0 : Fin 2) : Fin 50000) (((cfg0.win 6).blk t).view.emb j (1 : Fin 2) : Fin 128)
  rw [hq]
  exact Cert.Sage.sageAt_congr (iblk0 V c 0 t : Vec Ideal S5000x128 .f32) (iblk0 V c 1 t : Vec Ideal S5000x1 .f32)
    (iblk0 V c 2 t : Vec Ideal S5000x128 .f32) (iblk0 V c 3 t : Vec Ideal S128x128 .bf16) (iblk0 V c 4 t : Vec Ideal S128x128 .bf16)
    (iblk0 V c 5 t : Vec Ideal S1x128 .f32) (aggArr V c) (degArr V c) (rootArr V c) (wlArr V c) (wrArr V c) (bArr V c)
    (j (0 : Fin 2) : Fin 5000) (((cfg0.win 6).blk t).view.emb j (0 : Fin 2) : Fin 50000) (j (1 : Fin 2) : Fin 128)
    (fun k => agg_blk V c t _ k _ hP) (deg_blk V c t _ _ hP) (fun k => root_blk V c t _ k _ hP)
    (fun k => wl_blk V c t k _) (fun k => wr_blk V c t k _) (b_blk V c t _)

/-- An index of the result array is in point `t`'s block iff each coordinate is in the block's range on its axis. -/
theorem mem_blk (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v26).slice (win0_6.rect t)).set ↔ _
  rw [View.set_slice_whole, Rect.mem_set_unit]
  exact Iff.rfl

/-- Every row lies in some point's block: row `r` in block `r / 5000`. -/
theorem cover (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  refine ⟨⟨(i 0).val / 5000, by rw [show cfg0.N = 10 from N_0]; omega⟩, flush0_6 _, ?_⟩
  rw [mem_blk]
  intro a
  obtain ⟨-, -, -, -, -, -, -, -, -, -, -, -, e0, e1⟩ := idx_facts ⟨(i 0).val / 5000, by rw [show cfg0.N = 10 from N_0]; omega⟩
  match a with
  | ⟨0, _⟩ =>
    show win0_6.index _ (0 : Fin 2) * 5000 ≤ (i 0).val ∧ (i 0).val < win0_6.index _ (0 : Fin 2) * 5000 + 5000
    rw [e0]; show (i 0).val / 5000 * 5000 ≤ (i 0).val ∧ (i 0).val < (i 0).val / 5000 * 5000 + 5000; omega
  | ⟨1, _⟩ =>
    show win0_6.index _ (1 : Fin 2) * 128 ≤ (i 1).val ∧ (i 1).val < win0_6.index _ (1 : Fin 2) * 128 + 128
    rw [e1]; omega

/-- The result array after the call: the layer's function of the arrays the call finds. -/
theorem final (c : Dev nD) : (dat0 V c).arrAt 6 cfg0.N = result V c :=
  (dat0 V c).arrAt_eq_of_cover 6 (result V c) (fun t _ => flushed_eq V c t) cover

end Cert.KernelIdeal.Region0

end
-- ==== Proof.KRegion1.lean ====
/- The second layer's pallas_call, whole: the array it leaves is the layer's function of the arrays it finds.
  It runs the same kernel on the same ten-point grid as the first layer's call, over the second layer's arrays (the neighbour sums of the
  first layer's result, the same degree column, the first layer's result as root features, the second layer's weights and bias row), so the
  argument is the first call's word for word: what point t writes back is block t of sageRows 50000 of the whole arrays, and the ten blocks
  tile the rows. -/
import proofs.«110979_j39977555591470_1_alg».proof.Proof.KRegion0

noncomputable section

open scoped BigOperators
open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen Cert.KernelIdeal.GenP

variable (V : (c : Dev nD) → (b : Ref sig .tc) → Buf (Elt Ideal) ((c : Thread nD τ).loc b))

theorem hz : (![0, 0] : Fin 2 → Nat) = fun _ => 0 := funext fun a => by fin_cases a <;> rfl

/-- The arrays the call finds, each at its literal type. -/
abbrev aggArr (c : Dev nD) : Vec Ideal S50000x128 .f32 := V c main_v36
abbrev degArr (c : Dev nD) : Vec Ideal S50000x1 .f32 := V c main_v10
abbrev rootArr (c : Dev nD) : Vec Ideal S50000x128 .f32 := V c main_v26
abbrev wlArr (c : Dev nD) : Vec Ideal S128x128 .bf16 := V c main_v38
abbrev wrArr (c : Dev nD) : Vec Ideal S128x128 .bf16 := V c main_v40
abbrev bArr (c : Dev nD) : Vec Ideal S1x128 .f32 := V c main_v41

/-- What the call leaves in its result array: the layer's function of the arrays it finds. -/
def result (c : Dev nD) : Vec Ideal S50000x128 .f32 :=
  Cert.Sage.sageRows 50000 (aggArr V c) (degArr V c) (rootArr V c) (wlArr V c) (wrArr V c) (bArr V c)

/-- The printed index maps over the grid: the row-wise windows move with the point, the weights and the bias stay. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row `p` of the block of neighbour sums at point `t` is row `5000 t + p` of the array. -/
theorem agg_blk (c : Dev nD) (t : Fin cfg1.N) (p : Fin 5000) (k : Fin 128) (P : Fin 50000) (hP : P.val = 5000 * t.val + p.val) :
    (iblk1 V c 0 t : Vec Ideal S5000x128 .f32) (ix2 p k) = aggArr V c (ix2 P k) := by
  unfold iblk1
  rw [View.read_apply]
  show V c main_v36 _ = V c main_v36 _
  congr 1
  funext a
  apply Fin.ext
  match a with
  | ⟨0, _⟩ => show win1_0.index t (0 : Fin 2) * 5000 + 1 * p.val = P.val; rw [(idx_facts t).1, hP]; omega
  | ⟨1, _⟩ => show win1_0.index t (1 : Fin 2) * 128 + 1 * k.val = k.val; rw [(idx_facts t).2.1]; omega

/-- The degree of row `p` of the block at point `t` is the degree of row `5000 t + p`. -/
theorem deg_blk (c : Dev nD) (t : Fin cfg1.N) (p : Fin 5000) (P : Fin 50000) (hP : P.val = 5000 * t.val + p.val) :
    (iblk1 V c 1 t : Vec Ideal S5000x1 .f32) (ix2 p (0 : Fin 1)) = degArr V c (ix2 P (0 : Fin 1)) := by
  unfold iblk1
  rw [View.read_apply]
  show V c main_v10 _ = V c main_v10 _
  congr 1
  funext a
  apply Fin.ext
  match a with
  | ⟨0, _⟩ => show win1_1.index t (0 : Fin 2) * 5000 + 1 * p.val = P.val; rw [(idx_facts t).2.2.1, hP]; omega
  | ⟨1, _⟩ => show win1_1.index t (1 : Fin 2) * 1 + 1 * 0 = 0; rw [(idx_facts t).2.2.2.1]

/-- Row `p` of the block of root features at point `t` is row `5000 t + p` of the array. -/
theorem root_blk (c : Dev nD) (t : Fin cfg1.N) (p : Fin 5000) (k : Fin 128) (P : Fin 50000) (hP : P.val = 5000 * t.val + p.val) :
    (iblk1 V c 2 t : Vec Ideal S5000x128 .f32) (ix2 p k) = rootArr V c (ix2 P k) := by
  unfold iblk1
  rw [View.read_apply]
  show V c main_v26 _ = V c main_v26 _
  congr 1
  funext a
  apply Fin.ext
  match a with
  | ⟨0, _⟩ => show win1_2.index t (0 : Fin 2) * 5000 + 1 * p.val = P.val; rw [(idx_facts t).2.2.2.2.1, hP]; omega
  | ⟨1, _⟩ => show win1_2.index t (1 : Fin 2) * 128 + 1 * k.val = k.val; rw [(idx_facts t).2.2.2.2.2.1]; omega

/-- The weights and the bias row are loaded whole at every point. -/
theorem wl_blk (c : Dev nD) (t : Fin cfg1.N) (k q : Fin 128) :
    (iblk1 V c 3 t : Vec Ideal S128x128 .bf16) (ix2 k q) = wlArr V c (ix2 k q) := by
  unfold iblk1
  rw [View.read_apply]
  show V c main_v38 _ = V c main_v38 _
  congr 1
  funext a
  apply Fin.ext
  match a with
  | ⟨0, _⟩ => show win1_3.index t (0 : Fin 2) * 128 + 1 * k.val = k.val; rw [(idx_facts t).2.2.2.2.2.2.1]; omega
  | ⟨1, _⟩ => show win1_3.index t (1 : Fin 2) * 128 + 1 * q.val = q.val; rw [(idx_facts t).2.2.2.2.2.2.2.1]; omega

theorem wr_blk (c : Dev nD) (t : Fin cfg1.N) (k q : Fin 128) :
    (iblk1 V c 4 t : Vec Ideal S128x128 .bf16) (ix2 k q) = wrArr V c (ix2 k q) := by
  unfold iblk1
  rw [View.read_apply]
  show V c main_v40 _ = V c main_v40 _
  congr 1
  funext a
  apply Fin.ext
  match a with
  | ⟨0, _⟩ => show win1_4.index t (0 : Fin 2) * 128 + 1 * k.val = k.val; rw [(idx_facts t).2.2.2.2.2.2.2.2.1]; omega
  | ⟨1, _⟩ => show win1_4.index t (1 : Fin 2) * 128 + 1 * q.val = q.val; rw [(idx_facts t).2.2.2.2.2.2.2.2.2.1]; omega

theorem b_blk (c : Dev nD) (t : Fin cfg1.N) (q : Fin 128) :
    (iblk1 V c 5 t : Vec Ideal S1x128 .f32) (ix2 (0 : Fin 1) q) = bArr V c (ix2 (0 : Fin 1) q) := by
  unfold iblk1
  rw [View.read_apply]
  show V c main_v41 _ = V c main_v41 _
  congr 1
  funext a
  apply Fin.ext
  match a with
  | ⟨0, _⟩ => show win1_5.index t (0 : Fin 2) * 1 + 1 * 0 = 0; rw [(idx_facts t).2.2.2.2.2.2.2.2.2.2.1]
  | ⟨1, _⟩ => show win1_5.index t (1 : Fin 2) * 128 + 1 * q.val = q.val; rw [(idx_facts t).2.2.2.2.2.2.2.2.2.2.2.1]; omega

/-- What point `t` writes back is block `t` of the layer's function of the whole arrays. -/
theorem flushed_eq (c : Dev nD) (t : Fin cfg1.N) :
    (dat1 V c).flushed 6 t = ((cfg1.win 6).blk t).view.read (Elt Ideal) (result V c) := by
  show (cfg1.win 6).cut (grid1.coords t) ((dat1 V c).after 6 t) = _
  rw [after1_6]
  unfold out1_6
  rw [View.canon_unit_zero hz]
  simp only [View.ld_unit_zero (S := S5000x128) hz, View.ld_unit_zero (S := S5000x1) hz, View.ld_unit_zero (S := S128x128) hz,
    View.ld_unit_zero (S := S1x128) hz]
  rw [Cert.KernelIdeal.Payload.k1_pay1_eq]
  funext j
  rw [View.read_apply]
  have hP : ((((cfg1.win 6).blk t).view.emb j (0 : Fin 2)) : Fin 50000).val = 5000 * t.val + ((j (0 : Fin 2)) : Fin 5000).val := by
    show win1_6.index t (0 : Fin 2) * 5000 + 1 * (j 0).val = _
    rw [(idx_facts t).2.2.2.2.2.2.2.2.2.2.2.2.1]; omega
  have hq : ((((cfg1.win 6).blk t).view.emb j (1 : Fin 2)) : Fin 128) = ((j (1 : Fin 2)) : Fin 128) := Fin.ext (by
    show win1_6.index t (1 : Fin 2) * 128 + 1 * (j 1).val = (j 1).val
    rw [(idx_facts t).2.2.2.2.2.2.2.2.2.2.2.2.2]; omega)
  show Cert.Sage.sageAt (iblk1 V c 0 t : Vec Ideal S5000x128 .f32) (iblk1 V c 1 t : Vec Ideal S5000x1 .f32)
        (iblk1 V c 2 t : Vec Ideal S5000x128 .f32) (iblk1 V c 3 t : Vec Ideal S128x128 .bf16) (iblk1 V c 4 t : Vec Ideal S128x128 .bf16)
        (iblk1 V c 5 t : Vec Ideal S1x128 .f32) (j (0 : Fin 2) : Fin 5000) (j (1 : Fin 2) : Fin 128)
      = Cert.Sage.sageAt (aggArr V c) (degArr V c) (rootArr V c) (wlArr V c) (wrArr V c) (bArr V c)
        (((cfg1.win 6).blk t).view.emb j (0 : Fin 2) : Fin 50000) (((cfg1.win 6).blk t).view.emb j (1 : Fin 2) : Fin 128)
  rw [hq]
  exact Cert.Sage.sageAt_congr (iblk1 V c 0 t : Vec Ideal S5000x128 .f32) (iblk1 V c 1 t : Vec Ideal S5000x1 .f32)
    (iblk1 V c 2 t : Vec Ideal S5000x128 .f32) (iblk1 V c 3 t : Vec Ideal S128x128 .bf16) (iblk1 V c 4 t : Vec Ideal S128x128 .bf16)
    (iblk1 V c 5 t : Vec Ideal S1x128 .f32) (aggArr V c) (degArr V c) (rootArr V c) (wlArr V c) (wrArr V c) (bArr V c)
    (j (0 : Fin 2) : Fin 5000) (((cfg1.win 6).blk t).view.emb j (0 : Fin 2) : Fin 50000) (j (1 : Fin 2) : Fin 128)
    (fun k => agg_blk V c t _ k _ hP) (deg_blk V c t _ _ hP) (fun k => root_blk V c t _ k _ hP)
    (fun k => wl_blk V c t k _) (fun k => wr_blk V c t k _) (b_blk V c t _)

/-- An index of the result array is in point `t`'s block iff each coordinate is in the block's range on its axis. -/
theorem mem_blk (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v42).slice (win1_6.rect t)).set ↔ _
  rw [View.set_slice_whole, Rect.mem_set_unit]
  exact Iff.rfl

/-- Every row lies in some point's block: row `r` in block `r / 5000`. -/
theorem cover (i : S50000x128.Idx) : ∃ t : Fin cfg1.N, (cfg1.win 6).flush t = true ∧ i ∈ ((cfg1.win 6).blk t).view.set := by
  have hi0 : (i 0).val < 50000 := (i 0).isLt
  have hi1 : (i 1).val < 128 := (i 1).isLt
  refine ⟨⟨(i 0).val / 5000, by rw [show cfg1.N = 10 from N_1]; omega⟩, flush1_6 _, ?_⟩
  rw [mem_blk]
  intro a
  obtain ⟨-, -, -, -, -, -, -, -, -, -, -, -, e0, e1⟩ := idx_facts ⟨(i 0).val / 5000, by rw [show cfg1.N = 10 from N_1]; omega⟩
  match a with
  | ⟨0, _⟩ =>
    show win1_6.index _ (0 : Fin 2) * 5000 ≤ (i 0).val ∧ (i 0).val < win1_6.index _ (0 : Fin 2) * 5000 + 5000
    rw [e0]; show (i 0).val / 5000 * 5000 ≤ (i 0).val ∧ (i 0).val < (i 0).val / 5000 * 5000 + 5000; omega
  | ⟨1, _⟩ =>
    show win1_6.index _ (1 : Fin 2) * 128 ≤ (i 1).val ∧ (i 1).val < win1_6.index _ (1 : Fin 2) * 128 + 128
    rw [e1]; omega

/-- The result array after the call: the layer's function of the arrays the call finds. -/
theorem final (c : Dev nD) : (dat1 V c).arrAt 6 cfg1.N = result V c :=
  (dat1 V c).arrAt_eq_of_cover 6 (result V c) (fun t _ => flushed_eq V c t) cover

end Cert.KernelIdeal.Region1

end
-- ==== Proof.KRegion2.lean ====
/-
  The pool-and-classifier pallas_call, whole: the array it leaves is `Cert.Sage.poolRows` of the arrays it finds.

  The grid has one point; it loads the per-graph sums, the count column, the weight and the bias row whole and writes the
  whole 128 × 128 result, so what it writes back is the one block of `poolRows` of the arrays, and that block is the array.
-/
import proofs.«110979_j39977555591470_1_alg».proof.Proof.KernelIdealFrame
import proofs.«110979_j39977555591470_1_alg».proof.Proof.KPayload
import Idealize.ShloMosaic.Lib.Pipeline.Value
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.Sage

/-- A row of the pool-and-classifier function depends on that row of the sums and of the count column only: if row `p` of
    the blocks is row `P` of the arrays, and the weight and the bias row agree, the two functions agree at `(p, q)` and
    `(P, q)`. -/
theorem poolAt_congr (g : (⟨2, ![128, 128]⟩ : Shape).Idx → EReal) (n : (⟨2, ![128, 1]⟩ : Shape).Idx → EReal)
    (w : (⟨2, ![128, 128]⟩ : Shape).Idx → EReal) (b : (⟨2, ![1, 128]⟩ : Shape).Idx → EReal)
    (G : (⟨2, ![128, 128]⟩ : Shape).Idx → EReal) (N : (⟨2, ![128, 1]⟩ : Shape).Idx → EReal)
    (W : (⟨2, ![128, 128]⟩ : Shape).Idx → EReal) (B : (⟨2, ![1, 128]⟩ : Shape).Idx → EReal) (p P q : Fin 128)
    (hg : ∀ k, g (ix2 p k) = G (ix2 P k)) (hn : n (ix2 p (0 : Fin 1)) = N (ix2 P (0 : Fin 1)))
    (hw : ∀ k, w (ix2 k q) = W (ix2 k q)) (hb : b (ix2 (0 : Fin 1) q) = B (ix2 (0 : Fin 1) q)) :
    poolAt g n w b p q = poolAt G N W B P q := by
  unfold poolAt
  simp only [hg, hn, hw, hb]

end Cert.Sage

namespace Cert.KernelIdeal.Region2

open Cert.KernelIdeal Cert.KernelIdeal.Gen Cert.KernelIdeal.GenP

variable (V : (c : Dev nD) → (b : Ref sig .tc) → Buf (Elt Ideal) ((c : Thread nD τ).loc b))

/-- The arrays the call finds, each at its literal type. -/
abbrev gsumArr (c : Dev nD) : Vec Ideal S128x128 .f32 := V c main_v45
abbrev gcntArr (c : Dev nD) : Vec Ideal S128x1 .f32 := V c main_v50
abbrev wArr (c : Dev nD) : Vec Ideal S128x128 .bf16 := V c main_v52
abbrev bArr (c : Dev nD) : Vec Ideal S1x128 .f32 := V c main_v53

/-- What the call leaves in its result array: the pool-and-classifier function of the arrays it finds. -/
def result (c : Dev nD) : Vec Ideal S128x128 .f32 :=
  Cert.Sage.poolRows (gsumArr V c) (gcntArr V c) (wArr V c) (bArr V c)

theorem hz : (![0, 0] : Fin 2 → Nat) = fun _ => 0 := funext fun a => by fin_cases a <;> rfl

/-- The printed index maps over the one-point grid: every window stays at block 0 on both axes. -/
theorem idx_facts : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- The block of per-graph sums is the array: row `p` of the block is row `p`. -/
theorem gsum_blk (c : Dev nD) (t : Fin cfg2.N) (p k : Fin 128) :
    (iblk2 V c 0 t : Vec Ideal S128x128 .f32) (ix2 p k) = gsumArr V c (ix2 p k) := by
  unfold iblk2
  rw [View.read_apply]
  show V c main_v45 _ = V c main_v45 _
  congr 1
  funext a
  apply Fin.ext
  match a with
  | ⟨0, _⟩ => show win2_0.index t (0 : Fin 2) * 128 + 1 * p.val = p.val; rw [(idx_facts t).1]; omega
  | ⟨1, _⟩ => show win2_0.index t (1 : Fin 2) * 128 + 1 * k.val = k.val; rw [(idx_facts t).2.1]; omega

/-- The block of the count column is the column: the count of row `p` of the block is the count of row `p`. -/
theorem gcnt_blk (c : Dev nD) (t : Fin cfg2.N) (p : Fin 128) :
    (iblk2 V c 1 t : Vec Ideal S128x1 .f32) (ix2 p (0 : Fin 1)) = gcntArr V c (ix2 p (0 : Fin 1)) := by
  unfold iblk2
  rw [View.read_apply]
  show V c main_v50 _ = V c main_v50 _
  congr 1
  funext a
  apply Fin.ext
  match a with
  | ⟨0, _⟩ => show win2_1.index t (0 : Fin 2) * 128 + 1 * p.val = p.val; rw [(idx_facts t).2.2.1]; omega
  | ⟨1, _⟩ => show win2_1.index t (1 : Fin 2) * 1 + 1 * 0 = 0; rw [(idx_facts t).2.2.2.1]

/-- The weight and the bias row are loaded whole. -/
theorem w_blk (c : Dev nD) (t : Fin cfg2.N) (k q : Fin 128) :
    (iblk2 V c 2 t : Vec Ideal S128x128 .bf16) (ix2 k q) = wArr V c (ix2 k q) := by
  unfold iblk2
  rw [View.read_apply]
  show V c main_v52 _ = V c main_v52 _
  congr 1
  funext a
  apply Fin.ext
  match a with
  | ⟨0, _⟩ => show win2_2.index t (0 : Fin 2) * 128 + 1 * k.val = k.val; rw [(idx_facts t).2.2.2.2.1]; omega
  | ⟨1, _⟩ => show win2_2.index t (1 : Fin 2) * 128 + 1 * q.val = q.val; rw [(idx_facts t).2.2.2.2.2.1]; omega

theorem b_blk (c : Dev nD) (t : Fin cfg2.N) (q : Fin 128) :
    (iblk2 V c 3 t : Vec Ideal S1x128 .f32) (ix2 (0 : Fin 1) q) = bArr V c (ix2 (0 : Fin 1) q) := by
  unfold iblk2
  rw [View.read_apply]
  show V c main_v53 _ = V c main_v53 _
  congr 1
  funext a
  apply Fin.ext
  match a with
  | ⟨0, _⟩ => show win2_3.index t (0 : Fin 2) * 1 + 1 * 0 = 0; rw [(idx_facts t).2.2.2.2.2.2.1]
  | ⟨1, _⟩ => show win2_3.index t (1 : Fin 2) * 128 + 1 * q.val = q.val; rw [(idx_facts t).2.2.2.2.2.2.2.1]; omega

/-- What the one point writes back is the one block of the pool-and-classifier function of the whole arrays. -/
theorem flushed_eq (c : Dev nD) (t : Fin cfg2.N) :
    (dat2 V c).flushed 4 t = ((cfg2.win 4).blk t).view.read (Elt Ideal) (result V c) := by
  show (cfg2.win 4).cut (grid2.coords t) ((dat2 V c).after 4 t) = _
  rw [after2_4]
  unfold out2_4
  rw [View.canon_unit_zero hz]
  simp only [View.ld_unit_zero (S := S128x128) hz, View.ld_unit_zero (S := S128x1) hz, View.ld_unit_zero (S := S1x128) hz]
  rw [Cert.KernelIdeal.Payload.k2_pay1_eq]
  funext j
  rw [View.read_apply]
  have hp : ((((cfg2.win 4).blk t).view.emb j (0 : Fin 2)) : Fin 128) = ((j (0 : Fin 2)) : Fin 128) := Fin.ext (by
    show win2_4.index t (0 : Fin 2) * 128 + 1 * (j 0).val = (j 0).val
    rw [(idx_facts t).2.2.2.2.2.2.2.2.1]; omega)
  have hq : ((((cfg2.win 4).blk t).view.emb j (1 : Fin 2)) : Fin 128) = ((j (1 : Fin 2)) : Fin 128) := Fin.ext (by
    show win2_4.index t (1 : Fin 2) * 128 + 1 * (j 1).val = (j 1).val
    rw [(idx_facts t).2.2.2.2.2.2.2.2.2]; omega)
  show Cert.Sage.poolAt (iblk2 V c 0 t : Vec Ideal S128x128 .f32) (iblk2 V c 1 t : Vec Ideal S128x1 .f32)
        (iblk2 V c 2 t : Vec Ideal S128x128 .bf16) (iblk2 V c 3 t : Vec Ideal S1x128 .f32)
        (j (0 : Fin 2) : Fin 128) (j (1 : Fin 2) : Fin 128)
      = Cert.Sage.poolAt (gsumArr V c) (gcntArr V c) (wArr V c) (bArr V c)
        (((cfg2.win 4).blk t).view.emb j (0 : Fin 2) : Fin 128) (((cfg2.win 4).blk t).view.emb j (1 : Fin 2) : Fin 128)
  rw [hp, hq]
  exact Cert.Sage.poolAt_congr (iblk2 V c 0 t : Vec Ideal S128x128 .f32) (iblk2 V c 1 t : Vec Ideal S128x1 .f32)
    (iblk2 V c 2 t : Vec Ideal S128x128 .bf16) (iblk2 V c 3 t : Vec Ideal S1x128 .f32)
    (gsumArr V c) (gcntArr V c) (wArr V c) (bArr V c)
    (j (0 : Fin 2) : Fin 128) (j (0 : Fin 2) : Fin 128) (j (1 : Fin 2) : Fin 128)
    (fun k => gsum_blk V c t _ k) (gcnt_blk V c t _) (fun k => w_blk V c t k _) (b_blk V c t _)

/-- An index of the result array is in the point's block iff each coordinate is in the block's range on its axis. -/
theorem mem_blk (t : Fin cfg2.N) (i : S128x128.Idx) :
    i ∈ ((cfg2.win 4).blk t).view.set ↔ ∀ a : Fin 2, win2_4.index t a * S128x128.size a ≤ (i a).val ∧ (i a).val < win2_4.index t a * S128x128.size a + S128x128.size a := by
  show i ∈ ((View.whole main_v54).slice (win2_4.rect t)).set ↔ _
  rw [View.set_slice_whole, Rect.mem_set_unit]
  exact Iff.rfl

/-- Every entry lies in the one point's block, which is the whole array. -/
theorem cover (i : S128x128.Idx) : ∃ t : Fin cfg2.N, (cfg2.win 4).flush t = true ∧ i ∈ ((cfg2.win 4).blk t).view.set := by
  have hi0 : (i 0).val < 128 := (i 0).isLt
  have hi1 : (i 1).val < 128 := (i 1).isLt
  refine ⟨t2_0, flush2_4 _, ?_⟩
  rw [mem_blk]
  intro a
  obtain ⟨-, -, -, -, -, -, -, -, e0, e1⟩ := idx_facts t2_0
  match a with
  | ⟨0, _⟩ =>
    show win2_4.index _ (0 : Fin 2) * 128 ≤ (i 0).val ∧ (i 0).val < win2_4.index _ (0 : Fin 2) * 128 + 128
    rw [e0]; omega
  | ⟨1, _⟩ =>
    show win2_4.index _ (1 : Fin 2) * 128 ≤ (i 1).val ∧ (i 1).val < win2_4.index _ (1 : Fin 2) * 128 + 128
    rw [e1]; omega

/-- The result array after the call. -/
theorem final (c : Dev nD) : (dat2 V c).arrAt 4 cfg2.N = result V c := by
  exact (dat2 V c).arrAt_eq_of_cover 4 (result V c) (fun t _ => flushed_eq V c t) cover

end Cert.KernelIdeal.Region2

end
-- ==== Proof.KValue.lean ====
/-
  The kernel program's result as one function of its arguments.

  The host side: from the edge list, the source indices (negative ones wrapped by 50000) and the destination indices, each made
  a column; the degree column (ones scattered onto the destinations, clamped below at one); the neighbour sums of a feature
  array `h` (rows of `h` gathered at the sources and scattered onto the destinations); the per-graph sums and counts (rows,
  and ones, scattered onto the batch vector); a weight transposed (its change of float format kept as written); a bias made a
  row. These are the host operations as the program spells them, for any float family.
  On the extended reals: a layer is `Cert.Sage.sageRows 50000` of the neighbour sums, the degree column, the features, the two
  transposed weights and the bias row; the result is `Cert.Sage.poolRows` of the per-graph sums of the second layer's output,
  the count column, the transposed classifier weight and its bias row.
-/
import proofs.«110979_j39977555591470_1_alg».proof.Proof.Gen.KernelIdeal
import proofs.«110979_j39977555591470_1_alg».proof.Proof.Spec

noncomputable section

namespace Cert.KernelIdeal.Value

open Cert.KernelIdeal Cert.KernelIdeal.Gen Idealize.ShloMosaic

variable {F : FTy → Type} [FloatOps F]

/-- The source and the destination node of every edge. -/
def srcIdx (ei : IVec S2x800000 32) : IVec S800000 32 :=
  shapeCast S800000 (extractStridedSlice S1x800000 ![0, 0] ei slices_S2x800000_S1x800000_0_0) shapeCasts_S1x800000_S800000
def dstIdx (ei : IVec S2x800000 32) : IVec S800000 32 :=
  shapeCast S800000 (extractStridedSlice S1x800000 ![1, 0] ei slices_S2x800000_S1x800000_1_0) shapeCasts_S1x800000_S800000

/-- The degree column: ones scattered onto the destinations, clamped below at one, made a column. -/
def degCol (dst : IVec S800000 32) : FVec F S50000x1 .f32 :=
  broadcastInDim S50000x1 ![0] bcast_S50000_S50000x1_0
    (maximumf
      (Host.scatterAdd scatter_S50000_S800000x1_S800000_n_0_0_1
        (broadcastInDim S50000 ![] bcast_S_S50000 (constant (F := F) S_ .f32 0x00000000#32))
        (broadcastInDim S800000x1 ![0] bcast_S800000_S800000x1_0 dst)
        (broadcastInDim S800000 ![] bcast_S_S800000 (constant (F := F) S_ .f32 0x3F800000#32)))
      (broadcastInDim S50000 ![] bcast_S_S50000 (constant (F := F) S_ .f32 0x3F800000#32)))

/-- The neighbour sums of `h`: its rows gathered at the sources (a negative index wrapped by 50000) and scattered onto the destinations. -/
def agg (h : FVec F S50000x128 .f32) (src dst : IVec S800000 32) : FVec F S50000x128 .f32 :=
  Host.scatterAdd scatter_S50000x128_S800000x1_S800000x128_1_0_0_1
    (broadcastInDim S50000x128 ![] bcast_S_S50000x128 (constant (F := F) S_ .f32 0x00000000#32))
    (broadcastInDim S800000x1 ![0] bcast_S800000_S800000x1_0 dst)
    (Host.gather gather_S50000x128_S800000x1_S800000x128_1_0_n_n_0_1_1128 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- The per-graph sums of `h`, and the per-graph counts made a column. -/
def gsum (h : FVec F S50000x128 .f32) (batch : IVec S50000 32) : FVec F S128x128 .f32 :=
  Host.scatterAdd scatter_S128x128_S50000x1_S50000x128_1_0_0_1
    (broadcastInDim S128x128 ![] bcast_S_S128x128 (constant (F := F) S_ .f32 0x00000000#32))
    (broadcastInDim S50000x1 ![0] bcast_S50000_S50000x1_0 batch) h
def gcnt (batch : IVec S50000 32) : FVec F S128 .f32 :=
  Host.scatterAdd scatter_S128_S50000x1_S50000_n_0_0_1
    (broadcastInDim S128 ![] bcast_S_S128 (constant (F := F) S_ .f32 0x00000000#32))
    (broadcastInDim S50000x1 ![0] bcast_S50000_S50000x1_0 batch)
    (broadcastInDim S50000 ![] bcast_S_S50000 (constant (F := F) S_ .f32 0x3F800000#32))
def gcntCol (batch : IVec S50000 32) : FVec F S128x1 .f32 :=
  broadcastInDim S128x1 ![0] bcast_S128_S128x1_0 (gcnt (F := F) batch)

/-- A weight transposed and narrowed, a bias made a row. -/
def wT (w : FVec F S128x128 .f32) : FVec F S128x128 .bf16 :=
  truncf .bf16 (transpose S128x128 [1, 0] w transposes_S128x128_S128x128_1_0) bitsLt_bf16_f32
def bRow (b : FVec F S128 .f32) : FVec F S1x128 .f32 := shapeCast S1x128 b shapeCasts_S128_S1x128

/-- One layer on the extended reals. -/
def layer (h : FVec Ideal S50000x128 .f32) (ei : IVec S2x800000 32) (wl wr : FVec Ideal S128x128 .f32) (b : FVec Ideal S128 .f32) :
    FVec Ideal S50000x128 .f32 :=
  Cert.Sage.sageRows 50000 (agg h (srcIdx ei) (dstIdx ei)) (degCol (F := Ideal) (dstIdx ei)) h (wT wl) (wT wr) (bRow b)

/-- The program's result on the extended reals. -/
def result (x : FVec Ideal S50000x128 .f32) (ei : IVec S2x800000 32) (batch : IVec S50000 32)
    (wl1 : FVec Ideal S128x128 .f32) (b1 : FVec Ideal S128 .f32) (wr1 wl2 : FVec Ideal S128x128 .f32) (b2 : FVec Ideal S128 .f32)
    (wr2 cw : FVec Ideal S128x128 .f32) (cb : FVec Ideal S128 .f32) : FVec Ideal S128x128 .f32 :=
  Cert.Sage.poolRows (gsum (layer (layer x ei wl1 wr1 b1) ei wl2 wr2 b2) batch) (gcntCol (F := Ideal) batch) (wT cw) (bRow cb)

end Cert.KernelIdeal.Value

end
-- ==== Proof.KFold.lean ====
/-
  The buffers along the kernel program's run, read back to the launch memory.

  The run's contents at each boundary are a fold: a host stretch applies its operations to the contents before it, a
  pallas_call replaces its arrays by what its write-backs leave and keeps every other buffer. Read at the buffers that matter:
  the first stretch computes the edge indices, the degree column, the first neighbour sums, the transposed weights and the bias
  row from the arguments; the first call leaves the first layer's output; the second stretch gathers and scatters that output and
  prepares the second layer's weights; the second call leaves the second layer's output; the third stretch sums it per graph and
  counts the graphs' nodes; the third call leaves the result. No stretch and no call writes an argument, and none writes a buffer
  an earlier one computed, so each is read where it was last written.
-/
import proofs.«110979_j39977555591470_1_alg».proof.Proof.KernelIdealFrame
import proofs.«110979_j39977555591470_1_alg».proof.Proof.KRegion0
import proofs.«110979_j39977555591470_1_alg».proof.Proof.KRegion1
import proofs.«110979_j39977555591470_1_alg».proof.Proof.KRegion2
import proofs.«110979_j39977555591470_1_alg».proof.Proof.KValue
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Fold

open Cert.KernelIdeal Cert.KernelIdeal.Gen Cert.KernelIdeal.GenP Cert.KernelIdeal.Value

variable (m : (ℓ : Loc nD τ sig) → Buf (Elt Ideal) ℓ) (ρ : Dev nD → PrngReg)

/-! ## A host stretch applied to any contents -/

section Stretches
variable (W : Valuation τ sig (Elt Ideal))

/-- The first stretch: the edge indices, the degree column, the neighbour sums of the features, the weights, the bias row. -/
theorem s0_v1 : StableHlo.after (hostOps0 (F := Ideal)) W (Proc.devRef .tc main_v1) = srcIdx (W (Proc.devRef .tc main_arg1)) := by
  dsimp only [hostOps0]; after_results; rfl
theorem s0_v3 : StableHlo.after (hostOps0 (F := Ideal)) W (Proc.devRef .tc main_v3) = dstIdx (W (Proc.devRef .tc main_arg1)) := by
  dsimp only [hostOps0]; after_results; rfl
theorem s0_v10 : StableHlo.after (hostOps0 (F := Ideal)) W (Proc.devRef .tc main_v10) = degCol (F := Ideal) (dstIdx (W (Proc.devRef .tc main_arg1))) := by
  dsimp only [hostOps0]; after_results; rfl
set_option maxHeartbeats 4000000 in
theorem s0_v20 : StableHlo.after (hostOps0 (F := Ideal)) W (Proc.devRef .tc main_v20)
    = agg (F := Ideal) (W (Proc.devRef .tc main_arg0)) (srcIdx (W (Proc.devRef .tc main_arg1))) (dstIdx (W (Proc.devRef .tc main_arg1))) := by
  unfold agg srcIdx dstIdx
  dsimp only [hostOps0]; after_results_simp <;> rfl
theorem s0_v22 : StableHlo.after (hostOps0 (F := Ideal)) W (Proc.devRef .tc main_v22) = wT (F := Ideal) (W (Proc.devRef .tc main_arg3)) := by
  dsimp only [hostOps0]; after_results; rfl
theorem s0_v24 : StableHlo.after (hostOps0 (F := Ideal)) W (Proc.devRef .tc main_v24) = wT (F := Ideal) (W (Proc.devRef .tc main_arg5)) := by
  dsimp only [hostOps0]; after_results; rfl
theorem s0_v25 : StableHlo.after (hostOps0 (F := Ideal)) W (Proc.devRef .tc main_v25) = bRow (F := Ideal) (W (Proc.devRef .tc main_arg4)) := by
  dsimp only [hostOps0]; after_results; rfl
theorem s0_main_arg0 : StableHlo.after (hostOps0 (F := Ideal)) W (Proc.devRef .tc main_arg0) = W (Proc.devRef .tc main_arg0) :=
  StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s0_main_arg2 : StableHlo.after (hostOps0 (F := Ideal)) W (Proc.devRef .tc main_arg2) = W (Proc.devRef .tc main_arg2) :=
  StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s0_main_arg6 : StableHlo.after (hostOps0 (F := Ideal)) W (Proc.devRef .tc main_arg6) = W (Proc.devRef .tc main_arg6) :=
  StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s0_main_arg7 : StableHlo.after (hostOps0 (F := Ideal)) W (Proc.devRef .tc main_arg7) = W (Proc.devRef .tc main_arg7) :=
  StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s0_main_arg8 : StableHlo.after (hostOps0 (F := Ideal)) W (Proc.devRef .tc main_arg8) = W (Proc.devRef .tc main_arg8) :=
  StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s0_main_arg9 : StableHlo.after (hostOps0 (F := Ideal)) W (Proc.devRef .tc main_arg9) = W (Proc.devRef .tc main_arg9) :=
  StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s0_main_arg10 : StableHlo.after (hostOps0 (F := Ideal)) W (Proc.devRef .tc main_arg10) = W (Proc.devRef .tc main_arg10) :=
  StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The second stretch: the neighbour sums of the first layer's output, the second layer's weights and bias row. -/
theorem s1_v36 : StableHlo.after (hostOps1 (F := Ideal)) W (Proc.devRef .tc main_v36)
    = agg (F := Ideal) (W (Proc.devRef .tc main_v26)) (W (Proc.devRef .tc main_v1)) (W (Proc.devRef .tc main_v3)) := by
  dsimp only [hostOps1]; after_results; rfl
theorem s1_v38 : StableHlo.after (hostOps1 (F := Ideal)) W (Proc.devRef .tc main_v38) = wT (F := Ideal) (W (Proc.devRef .tc main_arg6)) := by
  dsimp only [hostOps1]; after_results; rfl
theorem s1_v40 : StableHlo.after (hostOps1 (F := Ideal)) W (Proc.devRef .tc main_v40) = wT (F := Ideal) (W (Proc.devRef .tc main_arg8)) := by
  dsimp only [hostOps1]; after_results; rfl
theorem s1_v41 : StableHlo.after (hostOps1 (F := Ideal)) W (Proc.devRef .tc main_v41) = bRow (F := Ideal) (W (Proc.devRef .tc main_arg7)) := by
  dsimp only [hostOps1]; after_results; rfl
theorem s1_main_v10 : StableHlo.after (hostOps1 (F := Ideal)) W (Proc.devRef .tc main_v10) = W (Proc.devRef .tc main_v10) :=
  StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s1_main_v26 : StableHlo.after (hostOps1 (F := Ideal)) W (Proc.devRef .tc main_v26) = W (Proc.devRef .tc main_v26) :=
  StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s1_main_arg2 : StableHlo.after (hostOps1 (F := Ideal)) W (Proc.devRef .tc main_arg2) = W (Proc.devRef .tc main_arg2) :=
  StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s1_main_arg9 : StableHlo.after (hostOps1 (F := Ideal)) W (Proc.devRef .tc main_arg9) = W (Proc.devRef .tc main_arg9) :=
  StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s1_main_arg10 : StableHlo.after (hostOps1 (F := Ideal)) W (Proc.devRef .tc main_arg10) = W (Proc.devRef .tc main_arg10) :=
  StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The third stretch: the per-graph sums of the second layer's output, the count column, the classifier's weight and bias row. -/
theorem s2_v45 : StableHlo.after (hostOps2 (F := Ideal)) W (Proc.devRef .tc main_v45) = gsum (F := Ideal) (W (Proc.devRef .tc main_v42)) (W (Proc.devRef .tc main_arg2)) := by
  dsimp only [hostOps2]; after_results; rfl
theorem s2_v50 : StableHlo.after (hostOps2 (F := Ideal)) W (Proc.devRef .tc main_v50) = gcntCol (F := Ideal) (W (Proc.devRef .tc main_arg2)) := by
  dsimp only [hostOps2]; after_results; rfl
theorem s2_v52 : StableHlo.after (hostOps2 (F := Ideal)) W (Proc.devRef .tc main_v52) = wT (F := Ideal) (W (Proc.devRef .tc main_arg9)) := by
  dsimp only [hostOps2]; after_results; rfl
theorem s2_v53 : StableHlo.after (hostOps2 (F := Ideal)) W (Proc.devRef .tc main_v53) = bRow (F := Ideal) (W (Proc.devRef .tc main_arg10)) := by
  dsimp only [hostOps2]; after_results; rfl

end Stretches

/-! ## After the first stretch -/

theorem W1_v1 (c : Dev nD) : W1 m ρ c (Proc.devRef .tc main_v1) = srcIdx (m ((c : Thread nD τ).loc main_arg1)) := s0_v1 (W0 m ρ c)
theorem W1_v3 (c : Dev nD) : W1 m ρ c (Proc.devRef .tc main_v3) = dstIdx (m ((c : Thread nD τ).loc main_arg1)) := s0_v3 (W0 m ρ c)
theorem W1_v10 (c : Dev nD) : W1 m ρ c (Proc.devRef .tc main_v10) = degCol (F := Ideal) (dstIdx (m ((c : Thread nD τ).loc main_arg1))) := s0_v10 (W0 m ρ c)
theorem W1_v20 (c : Dev nD) : W1 m ρ c (Proc.devRef .tc main_v20) = agg (F := Ideal) (m ((c : Thread nD τ).loc main_arg0)) (srcIdx (m ((c : Thread nD τ).loc main_arg1))) (dstIdx (m ((c : Thread nD τ).loc main_arg1))) :=
  s0_v20 (W0 m ρ c)
theorem W1_v22 (c : Dev nD) : W1 m ρ c (Proc.devRef .tc main_v22) = wT (F := Ideal) (m ((c : Thread nD τ).loc main_arg3)) := s0_v22 (W0 m ρ c)
theorem W1_v24 (c : Dev nD) : W1 m ρ c (Proc.devRef .tc main_v24) = wT (F := Ideal) (m ((c : Thread nD τ).loc main_arg5)) := s0_v24 (W0 m ρ c)
theorem W1_v25 (c : Dev nD) : W1 m ρ c (Proc.devRef .tc main_v25) = bRow (F := Ideal) (m ((c : Thread nD τ).loc main_arg4)) := s0_v25 (W0 m ρ c)
theorem W1_main_arg0 (c : Dev nD) : W1 m ρ c (Proc.devRef .tc main_arg0) = m ((c : Thread nD τ).loc main_arg0) := s0_main_arg0 (W0 m ρ c)
theorem W1_main_arg2 (c : Dev nD) : W1 m ρ c (Proc.devRef .tc main_arg2) = m ((c : Thread nD τ).loc main_arg2) := s0_main_arg2 (W0 m ρ c)
theorem W1_main_arg6 (c : Dev nD) : W1 m ρ c (Proc.devRef .tc main_arg6) = m ((c : Thread nD τ).loc main_arg6) := s0_main_arg6 (W0 m ρ c)
theorem W1_main_arg7 (c : Dev nD) : W1 m ρ c (Proc.devRef .tc main_arg7) = m ((c : Thread nD τ).loc main_arg7) := s0_main_arg7 (W0 m ρ c)
theorem W1_main_arg8 (c : Dev nD) : W1 m ρ c (Proc.devRef .tc main_arg8) = m ((c : Thread nD τ).loc main_arg8) := s0_main_arg8 (W0 m ρ c)
theorem W1_main_arg9 (c : Dev nD) : W1 m ρ c (Proc.devRef .tc main_arg9) = m ((c : Thread nD τ).loc main_arg9) := s0_main_arg9 (W0 m ρ c)
theorem W1_main_arg10 (c : Dev nD) : W1 m ρ c (Proc.devRef .tc main_arg10) = m ((c : Thread nD τ).loc main_arg10) := s0_main_arg10 (W0 m ρ c)

/-! ## After the first call: its result array holds the first layer's output; its degree column and everything it does not
    stand over are as before -/

theorem W2_v26 (c : Dev nD) : W2 m ρ c (Proc.devRef .tc main_v26) = layer (m ((c : Thread nD τ).loc main_arg0)) (m ((c : Thread nD τ).loc main_arg1)) (m ((c : Thread nD τ).loc main_arg3)) (m ((c : Thread nD τ).loc main_arg5)) (m ((c : Thread nD τ).loc main_arg4)) := by
  rw [show W2 m ρ c (Proc.devRef .tc main_v26) = (dat0 (V1 m ρ) c).arrAt 6 cfg0.N from W2_arr m ρ c 6, Region0.final]
  unfold Region0.result layer
  show Cert.Sage.sageRows 50000 (W1 m ρ c (Proc.devRef .tc main_v20)) (W1 m ρ c (Proc.devRef .tc main_v10)) (W1 m ρ c (Proc.devRef .tc main_arg0))
      (W1 m ρ c (Proc.devRef .tc main_v22)) (W1 m ρ c (Proc.devRef .tc main_v24)) (W1 m ρ c (Proc.devRef .tc main_v25)) = _
  rw [W1_v20, W1_v10, W1_main_arg0, W1_v22, W1_v24, W1_v25]
theorem W2_v10 (c : Dev nD) : W2 m ρ c (Proc.devRef .tc main_v10) = degCol (F := Ideal) (dstIdx (m ((c : Thread nD τ).loc main_arg1))) :=
  ((W2_arr m ρ c 1).trans (((dat0 (V1 m ρ) c).arrAt_in 1 rfl _).trans (A_eq0 (V1 m ρ) c 1))).trans (W1_v10 m ρ c)
theorem W2_v1 (c : Dev nD) : W2 m ρ c (Proc.devRef .tc main_v1) = srcIdx (m ((c : Thread nD τ).loc main_arg1)) := (W2_of_ne m ρ c main_v1 (by decide)).trans (W1_v1 m ρ c)
theorem W2_v3 (c : Dev nD) : W2 m ρ c (Proc.devRef .tc main_v3) = dstIdx (m ((c : Thread nD τ).loc main_arg1)) := (W2_of_ne m ρ c main_v3 (by decide)).trans (W1_v3 m ρ c)
theorem W2_main_arg2 (c : Dev nD) : W2 m ρ c (Proc.devRef .tc main_arg2) = m ((c : Thread nD τ).loc main_arg2) := (W2_of_ne m ρ c main_arg2 (by decide)).trans (W1_main_arg2 m ρ c)
theorem W2_main_arg6 (c : Dev nD) : W2 m ρ c (Proc.devRef .tc main_arg6) = m ((c : Thread nD τ).loc main_arg6) := (W2_of_ne m ρ c main_arg6 (by decide)).trans (W1_main_arg6 m ρ c)
theorem W2_main_arg7 (c : Dev nD) : W2 m ρ c (Proc.devRef .tc main_arg7) = m ((c : Thread nD τ).loc main_arg7) := (W2_of_ne m ρ c main_arg7 (by decide)).trans (W1_main_arg7 m ρ c)
theorem W2_main_arg8 (c : Dev nD) : W2 m ρ c (Proc.devRef .tc main_arg8) = m ((c : Thread nD τ).loc main_arg8) := (W2_of_ne m ρ c main_arg8 (by decide)).trans (W1_main_arg8 m ρ c)
theorem W2_main_arg9 (c : Dev nD) : W2 m ρ c (Proc.devRef .tc main_arg9) = m ((c : Thread nD τ).loc main_arg9) := (W2_of_ne m ρ c main_arg9 (by decide)).trans (W1_main_arg9 m ρ c)
theorem W2_main_arg10 (c : Dev nD) : W2 m ρ c (Proc.devRef .tc main_arg10) = m ((c : Thread nD τ).loc main_arg10) := (W2_of_ne m ρ c main_arg10 (by decide)).trans (W1_main_arg10 m ρ c)

/-! ## After the second stretch -/

theorem W3_v36 (c : Dev nD) : W3 m ρ c (Proc.devRef .tc main_v36) = agg (F := Ideal) (layer (m ((c : Thread nD τ).loc main_arg0)) (m ((c : Thread nD τ).loc main_arg1)) (m ((c : Thread nD τ).loc main_arg3)) (m ((c : Thread nD τ).loc main_arg5)) (m ((c : Thread nD τ).loc main_arg4))) (srcIdx (m ((c : Thread nD τ).loc main_arg1))) (dstIdx (m ((c : Thread nD τ).loc main_arg1))) := by
  rw [show W3 m ρ c (Proc.devRef .tc main_v36) = _ from s1_v36 (W2 m ρ c), W2_v26, W2_v1, W2_v3]
theorem W3_v38 (c : Dev nD) : W3 m ρ c (Proc.devRef .tc main_v38) = wT (F := Ideal) (m ((c : Thread nD τ).loc main_arg6)) := by
  rw [show W3 m ρ c (Proc.devRef .tc main_v38) = _ from s1_v38 (W2 m ρ c), W2_main_arg6]
theorem W3_v40 (c : Dev nD) : W3 m ρ c (Proc.devRef .tc main_v40) = wT (F := Ideal) (m ((c : Thread nD τ).loc main_arg8)) := by
  rw [show W3 m ρ c (Proc.devRef .tc main_v40) = _ from s1_v40 (W2 m ρ c), W2_main_arg8]
theorem W3_v41 (c : Dev nD) : W3 m ρ c (Proc.devRef .tc main_v41) = bRow (F := Ideal) (m ((c : Thread nD τ).loc main_arg7)) := by
  rw [show W3 m ρ c (Proc.devRef .tc main_v41) = _ from s1_v41 (W2 m ρ c), W2_main_arg7]
theorem W3_v10 (c : Dev nD) : W3 m ρ c (Proc.devRef .tc main_v10) = degCol (F := Ideal) (dstIdx (m ((c : Thread nD τ).loc main_arg1))) :=
  (s1_main_v10 (W2 m ρ c)).trans (W2_v10 m ρ c)
theorem W3_v26 (c : Dev nD) : W3 m ρ c (Proc.devRef .tc main_v26) = layer (m ((c : Thread nD τ).loc main_arg0)) (m ((c : Thread nD τ).loc main_arg1)) (m ((c : Thread nD τ).loc main_arg3)) (m ((c : Thread nD τ).loc main_arg5)) (m ((c : Thread nD τ).loc main_arg4)) :=
  (s1_main_v26 (W2 m ρ c)).trans (W2_v26 m ρ c)
theorem W3_main_arg2 (c : Dev nD) : W3 m ρ c (Proc.devRef .tc main_arg2) = m ((c : Thread nD τ).loc main_arg2) := (s1_main_arg2 (W2 m ρ c)).trans (W2_main_arg2 m ρ c)
theorem W3_main_arg9 (c : Dev nD) : W3 m ρ c (Proc.devRef .tc main_arg9) = m ((c : Thread nD τ).loc main_arg9) := (s1_main_arg9 (W2 m ρ c)).trans (W2_main_arg9 m ρ c)
theorem W3_main_arg10 (c : Dev nD) : W3 m ρ c (Proc.devRef .tc main_arg10) = m ((c : Thread nD τ).loc main_arg10) := (s1_main_arg10 (W2 m ρ c)).trans (W2_main_arg10 m ρ c)

/-! ## After the second call -/

theorem W4_v42 (c : Dev nD) : W4 m ρ c (Proc.devRef .tc main_v42) = layer (layer (m ((c : Thread nD τ).loc main_arg0)) (m ((c : Thread nD τ).loc main_arg1)) (m ((c : Thread nD τ).loc main_arg3)) (m ((c : Thread nD τ).loc main_arg5)) (m ((c : Thread nD τ).loc main_arg4))) (m ((c : Thread nD τ).loc main_arg1)) (m ((c : Thread nD τ).loc main_arg6)) (m ((c : Thread nD τ).loc main_arg8)) (m ((c : Thread nD τ).loc main_arg7)) := by
  rw [show W4 m ρ c (Proc.devRef .tc main_v42) = (dat1 (V3 m ρ) c).arrAt 6 cfg1.N from W4_arr m ρ c 6, Region1.final]
  unfold Region1.result
  show Cert.Sage.sageRows 50000 (W3 m ρ c (Proc.devRef .tc main_v36)) (W3 m ρ c (Proc.devRef .tc main_v10)) (W3 m ρ c (Proc.devRef .tc main_v26))
      (W3 m ρ c (Proc.devRef .tc main_v38)) (W3 m ρ c (Proc.devRef .tc main_v40)) (W3 m ρ c (Proc.devRef .tc main_v41)) = _
  rw [W3_v36, W3_v10, W3_v26, W3_v38, W3_v40, W3_v41]
  rfl
theorem W4_main_arg2 (c : Dev nD) : W4 m ρ c (Proc.devRef .tc main_arg2) = m ((c : Thread nD τ).loc main_arg2) := (W4_of_ne m ρ c main_arg2 (by decide)).trans (W3_main_arg2 m ρ c)
theorem W4_main_arg9 (c : Dev nD) : W4 m ρ c (Proc.devRef .tc main_arg9) = m ((c : Thread nD τ).loc main_arg9) := (W4_of_ne m ρ c main_arg9 (by decide)).trans (W3_main_arg9 m ρ c)
theorem W4_main_arg10 (c : Dev nD) : W4 m ρ c (Proc.devRef .tc main_arg10) = m ((c : Thread nD τ).loc main_arg10) := (W4_of_ne m ρ c main_arg10 (by decide)).trans (W3_main_arg10 m ρ c)

/-! ## After the third stretch, and the result -/

theorem W5_v45 (c : Dev nD) : W5 m ρ c (Proc.devRef .tc main_v45) = gsum (F := Ideal) (layer (layer (m ((c : Thread nD τ).loc main_arg0)) (m ((c : Thread nD τ).loc main_arg1)) (m ((c : Thread nD τ).loc main_arg3)) (m ((c : Thread nD τ).loc main_arg5)) (m ((c : Thread nD τ).loc main_arg4))) (m ((c : Thread nD τ).loc main_arg1)) (m ((c : Thread nD τ).loc main_arg6)) (m ((c : Thread nD τ).loc main_arg8)) (m ((c : Thread nD τ).loc main_arg7))) (m ((c : Thread nD τ).loc main_arg2)) := by
  rw [show W5 m ρ c (Proc.devRef .tc main_v45) = _ from s2_v45 (W4 m ρ c), W4_v42, W4_main_arg2]
theorem W5_v50 (c : Dev nD) : W5 m ρ c (Proc.devRef .tc main_v50) = gcntCol (F := Ideal) (m ((c : Thread nD τ).loc main_arg2)) := by
  rw [show W5 m ρ c (Proc.devRef .tc main_v50) = _ from s2_v50 (W4 m ρ c), W4_main_arg2]
theorem W5_v52 (c : Dev nD) : W5 m ρ c (Proc.devRef .tc main_v52) = wT (F := Ideal) (m ((c : Thread nD τ).loc main_arg9)) := by
  rw [show W5 m ρ c (Proc.devRef .tc main_v52) = _ from s2_v52 (W4 m ρ c), W4_main_arg9]
theorem W5_v53 (c : Dev nD) : W5 m ρ c (Proc.devRef .tc main_v53) = bRow (F := Ideal) (m ((c : Thread nD τ).loc main_arg10)) := by
  rw [show W5 m ρ c (Proc.devRef .tc main_v53) = _ from s2_v53 (W4 m ρ c), W4_main_arg10]

/-- The result array at the end of the run is the program's value function of the arguments at launch. -/
theorem W6_result (c : Dev nD) : W6 m ρ c (Proc.devRef .tc main_v54)
    = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) (m ((c : Thread nD τ).loc main_arg9)) (m ((c : Thread nD τ).loc main_arg10)) := by
  rw [show W6 m ρ c (Proc.devRef .tc main_v54) = (dat2 (V5 m ρ) c).arrAt 4 cfg2.N from W6_arr m ρ c 4, Region2.final]
  unfold Region2.result result
  show Cert.Sage.poolRows (W5 m ρ c (Proc.devRef .tc main_v45)) (W5 m ρ c (Proc.devRef .tc main_v50)) (W5 m ρ c (Proc.devRef .tc main_v52))
      (W5 m ρ c (Proc.devRef .tc main_v53)) = _
  rw [W5_v45, W5_v50, W5_v52, W5_v53]

end Cert.KernelIdeal.Fold

end
-- ==== Proof.RefDense.lean ====
/-
  The reference's dense stretches are the specification's functions.

  In the reference a SAGE layer is the host's chain: the neighbour sums divided by the degree column spread over the 128
  lanes, a `dot_general` with the transposed weight, plus the bias spread over the rows, plus a second `dot_general` of the
  root features, clamped below at zero. Entry by entry on the extended reals that is `Cert.Sage.sageRows 50000`: the two
  `dot_general`s are the sums over `k`, the spreads read the column's row and the bias's lane, and the two additions
  `(s₁ + b) + s₂` and `(s₁ + s₂) + b` agree because addition of extended reals is commutative and associative.
  Likewise the pool-and-classifier chain is `Cert.Sage.poolRows`: there the clamp `max · 1` is applied to the counts before
  they are made a column, which reads the same at `(p, 0)`.
-/
import proofs.«110979_j39977555591470_1_alg».proof.Proof.Gen.ReferenceIdeal
import proofs.«110979_j39977555591470_1_alg».proof.Proof.Spec
import proofs.«110979_j39977555591470_1_alg».proof.Proof.LibPlainDot
import Idealize.ShloMosaic.Lib.Pipeline.Value
import Idealize.ShloMosaic.Lib.ValueIdx
import Idealize.ShloMosaic.PureOps.Ideal.Laws

noncomputable section

open scoped BigOperators

namespace Cert.ReferenceIdeal.Dense

open Cert.ReferenceIdeal Cert.ReferenceIdeal.Gen Idealize.ShloMosaic Idealize.ShloMosaic.ValueIdx

/-! ## The two products read at an entry

The printed dimension numbers list the same axes as a plain `R × 128` by `128 × 128` product, so the host's product at
`(p, q)` is the sum over `k` of `l (p, k) · r (k, q)`. -/

/-- The layer's product contracts the left operand's axis 1 with the right operand's axis 0 and has no batch axis. -/
theorem dotRows_eq : dot_S50000x128_S128x128_S50000x128_1_0_0_1_n_n = DotDims.plain 50000 128 128 := rfl

/-- The classifier's product likewise. -/
theorem dotPool_eq : dot_S128x128_S128x128_S128x128_1_0_0_1_n_n = DotDims.plain 128 128 128 := rfl

/-- The layer's product at `(p, q)`. -/
theorem dotRows_apply (l : FVec Ideal S50000x128 .f32) (r : FVec Ideal S128x128 .f32) (p : Fin 50000) (q : Fin 128) :
    Host.dotGeneral dot_S50000x128_S128x128_S50000x128_1_0_0_1_n_n none l r (ix2 p q)
      = ∑ k : Fin 128, l (ix2 p k) * r (ix2 k q) := by
  show FloatOps.dotGeneral dot_S50000x128_S128x128_S50000x128_1_0_0_1_n_n none .single l r (ix2 p q) = _
  rw [dotRows_eq]
  exact Cert.PlainDot.dotGeneral_apply none .single l r p q

/-- The classifier's product at `(p, q)`. -/
theorem dotPool_apply (l : FVec Ideal S128x128 .f32) (r : FVec Ideal S128x128 .f32) (p q : Fin 128) :
    Host.dotGeneral dot_S128x128_S128x128_S128x128_1_0_0_1_n_n none l r (ix2 p q)
      = ∑ k : Fin 128, l (ix2 p k) * r (ix2 k q) := by
  show FloatOps.dotGeneral dot_S128x128_S128x128_S128x128_1_0_0_1_n_n none .single l r (ix2 p q) = _
  rw [dotPool_eq]
  exact Cert.PlainDot.dotGeneral_apply none .single l r p q

/-! ## The spreads read at an entry

A column spread over the lanes reads the column's row `p` at its only lane; a row spread over the rows reads the row's
lane `q` at its only row; a vector made a column reads the vector at `p`; a scalar spread anywhere reads the scalar. -/

/-- A `50000 × 1` column spread over 128 lanes, at `(p, q)`. -/
theorem spreadColRows_apply {α : Type} (D : S50000x1.Idx → α) (p : Fin 50000) (q : Fin 128) :
    broadcastInDim S50000x128 ![0, 1] bcast_S50000x1_S50000x128_0_1 D (ix2 p q) = D (ix2 p (0 : Fin 1)) :=
  broadcastInDim_apply _ bcast_S50000x1_S50000x128_0_1 D (ix2 p q) (ix2 p (0 : Fin 1)) (fun a => match a with
    | ⟨0, _⟩ => by show p.val = if (50000 : Nat) = 1 then 0 else p.val; rw [if_neg (by omega)]
    | ⟨1, _⟩ => by show (0 : Fin 1).val = if (1 : Nat) = 1 then 0 else q.val; rw [if_pos rfl]; rfl)

/-- A `1 × 128` row spread over 50000 rows, at `(p, q)`. -/
theorem spreadRowRows_apply {α : Type} (B : S1x128.Idx → α) (p : Fin 50000) (q : Fin 128) :
    broadcastInDim S50000x128 ![0, 1] bcast_S1x128_S50000x128_0_1 B (ix2 p q) = B (ix2 (0 : Fin 1) q) :=
  broadcastInDim_apply _ bcast_S1x128_S50000x128_0_1 B (ix2 p q) (ix2 (0 : Fin 1) q) (fun a => match a with
    | ⟨0, _⟩ => by show (0 : Fin 1).val = if (1 : Nat) = 1 then 0 else p.val; rw [if_pos rfl]; rfl
    | ⟨1, _⟩ => by show q.val = if (128 : Nat) = 1 then 0 else q.val; rw [if_neg (by omega)])

/-- A scalar spread over the `50000 × 128` array, at any entry. -/
theorem spreadScalarRows_apply {α : Type} (c : S_.Idx → α) (i : S50000x128.Idx) :
    broadcastInDim S50000x128 ![] bcast_S_S50000x128 c i = c ix0 :=
  broadcastInDim_apply _ bcast_S_S50000x128 c i ix0 (fun a => a.elim0)

/-- A `128 × 1` column spread over 128 lanes, at `(p, q)`. -/
theorem spreadColPool_apply {α : Type} (D : S128x1.Idx → α) (p q : Fin 128) :
    broadcastInDim S128x128 ![0, 1] bcast_S128x1_S128x128_0_1 D (ix2 p q) = D (ix2 p (0 : Fin 1)) :=
  broadcastInDim_apply _ bcast_S128x1_S128x128_0_1 D (ix2 p q) (ix2 p (0 : Fin 1)) (fun a => match a with
    | ⟨0, _⟩ => by show p.val = if (128 : Nat) = 1 then 0 else p.val; rw [if_neg (by omega)]
    | ⟨1, _⟩ => by show (0 : Fin 1).val = if (1 : Nat) = 1 then 0 else q.val; rw [if_pos rfl]; rfl)

/-- A `1 × 128` row spread over 128 rows, at `(p, q)`. -/
theorem spreadRowPool_apply {α : Type} (B : S1x128.Idx → α) (p q : Fin 128) :
    broadcastInDim S128x128 ![0, 1] bcast_S1x128_S128x128_0_1 B (ix2 p q) = B (ix2 (0 : Fin 1) q) :=
  broadcastInDim_apply _ bcast_S1x128_S128x128_0_1 B (ix2 p q) (ix2 (0 : Fin 1) q) (fun a => match a with
    | ⟨0, _⟩ => by show (0 : Fin 1).val = if (1 : Nat) = 1 then 0 else p.val; rw [if_pos rfl]; rfl
    | ⟨1, _⟩ => by show q.val = if (128 : Nat) = 1 then 0 else q.val; rw [if_neg (by omega)])

/-- A vector of 128 made a `128 × 1` column, at `(p, 0)`. -/
theorem colPool_apply {α : Type} (s : S128.Idx → α) (p : Fin 128) :
    broadcastInDim S128x1 ![0] bcast_S128_S128x1_0 s (ix2 p (0 : Fin 1)) = s (ix1 p) :=
  broadcastInDim_apply _ bcast_S128_S128x1_0 s (ix2 p (0 : Fin 1)) (ix1 p) (fun a => match a with
    | ⟨0, _⟩ => by show p.val = if (128 : Nat) = 1 then 0 else p.val; rw [if_neg (by omega)])

/-- A scalar spread over a vector of 128, at any entry. -/
theorem spreadScalarPool_apply {α : Type} (c : S_.Idx → α) (i : S128.Idx) :
    broadcastInDim S128 ![] bcast_S_S128 c i = c ix0 :=
  broadcastInDim_apply _ bcast_S_S128 c i ix0 (fun a => a.elim0)

/-- One SAGE layer of the reference, on any neighbour sums `A`, degree column `D`, root features `X`, weights and bias. -/
theorem layer_eq (A : FVec Ideal S50000x128 .f32) (D : FVec Ideal S50000x1 .f32) (X : FVec Ideal S50000x128 .f32)
    (WL WR : FVec Ideal S128x128 .f32) (b : FVec Ideal S128 .f32) :
    maximumf
      (addf
        (addf
          (Host.dotGeneral dot_S50000x128_S128x128_S50000x128_1_0_0_1_n_n none
            (Host.divf A (broadcastInDim S50000x128 ![0, 1] bcast_S50000x1_S50000x128_0_1 D))
            (transpose S128x128 [1, 0] WL transposes_S128x128_S128x128_1_0))
          (broadcastInDim S50000x128 ![0, 1] bcast_S1x128_S50000x128_0_1 (broadcastInDim S1x128 ![1] bcast_S128_S1x128_1 b)))
        (Host.dotGeneral dot_S50000x128_S128x128_S50000x128_1_0_0_1_n_n none X
          (transpose S128x128 [1, 0] WR transposes_S128x128_S128x128_1_0)))
      (broadcastInDim S50000x128 ![] bcast_S_S50000x128 (constant (F := Ideal) S_ .f32 0x00000000#32))
    = Cert.Sage.sageRows 50000 A D X (transpose S128x128 [1, 0] WL transposes_S128x128_S128x128_1_0)
        (transpose S128x128 [1, 0] WR transposes_S128x128_S128x128_1_0) (broadcastInDim S1x128 ![1] bcast_S128_S1x128_1 b) := by
  funext i
  obtain ⟨p, q, rfl⟩ : ∃ (p : Fin 50000) (q : Fin 128), i = ix2 p q := ⟨i 0, i 1, eq_ix2 i⟩
  rw [Cert.Sage.sageRows_apply]
  unfold Cert.Sage.sageAt
  -- the weights and the bias row stay as they are on both sides
  generalize transpose S128x128 [1, 0] WL transposes_S128x128_S128x128_1_0 = wl
  generalize transpose S128x128 [1, 0] WR transposes_S128x128_S128x128_1_0 = wr
  generalize broadcastInDim S1x128 ![1] bcast_S128_S1x128_1 b = br
  -- the clamp, the two additions, entry by entry
  rw [maximumf_apply, addf_apply, addf_apply, spreadScalarRows_apply, constant_apply, spreadRowRows_apply,
    dotRows_apply, dotRows_apply]
  -- the quotient's row reads the degree column at its only lane
  have hdiv : ∀ k : Fin 128,
      Host.divf A (broadcastInDim S50000x128 ![0, 1] bcast_S50000x1_S50000x128_0_1 D) (ix2 p k)
        = Ideal.div (A (ix2 p k)) (D (ix2 p (0 : Fin 1))) := fun k => by
    show Ideal.div (A (ix2 p k)) (broadcastInDim S50000x128 ![0, 1] bcast_S50000x1_S50000x128_0_1 D (ix2 p k)) = _
    rw [spreadColRows_apply]
  rw [Finset.sum_congr rfl fun k _ => by rw [hdiv k]]
  -- (s₁ + b) + s₂ = (s₁ + s₂) + b
  rw [add_right_comm]

/-- The reference's mean pool and classifier, on any per-graph sums `G`, per-graph counts `s`, weight and bias. -/
theorem pool_eq (G : FVec Ideal S128x128 .f32) (s : FVec Ideal S128 .f32) (CW : FVec Ideal S128x128 .f32) (cb : FVec Ideal S128 .f32) :
    addf
      (Host.dotGeneral dot_S128x128_S128x128_S128x128_1_0_0_1_n_n none
        (Host.divf G (broadcastInDim S128x128 ![0, 1] bcast_S128x1_S128x128_0_1 (broadcastInDim S128x1 ![0] bcast_S128_S128x1_0
          (maximumf s (broadcastInDim S128 ![] bcast_S_S128 (constant (F := Ideal) S_ .f32 0x3F800000#32))))))
        (transpose S128x128 [1, 0] CW transposes_S128x128_S128x128_1_0))
      (broadcastInDim S128x128 ![0, 1] bcast_S1x128_S128x128_0_1 (broadcastInDim S1x128 ![1] bcast_S128_S1x128_1 cb))
    = Cert.Sage.poolRows G (broadcastInDim S128x1 ![0] bcast_S128_S128x1_0 s)
        (transpose S128x128 [1, 0] CW transposes_S128x128_S128x128_1_0) (broadcastInDim S1x128 ![1] bcast_S128_S1x128_1 cb) := by
  funext i
  obtain ⟨p, q, rfl⟩ : ∃ (p : Fin 128) (q : Fin 128), i = ix2 p q := ⟨i 0, i 1, eq_ix2 i⟩
  rw [Cert.Sage.poolRows_apply]
  unfold Cert.Sage.poolAt
  -- the weight and the bias row stay as they are on both sides
  generalize transpose S128x128 [1, 0] CW transposes_S128x128_S128x128_1_0 = w
  generalize broadcastInDim S1x128 ![1] bcast_S128_S1x128_1 cb = br
  rw [addf_apply, spreadRowPool_apply, dotPool_apply, colPool_apply]
  -- the quotient's row reads the clamped count of row `p`: clamping before or after making the column reads the same
  have hdiv : ∀ k : Fin 128,
      Host.divf G (broadcastInDim S128x128 ![0, 1] bcast_S128x1_S128x128_0_1 (broadcastInDim S128x1 ![0] bcast_S128_S128x1_0
          (maximumf s (broadcastInDim S128 ![] bcast_S_S128 (constant (F := Ideal) S_ .f32 0x3F800000#32))))) (ix2 p k)
        = Ideal.div (G (ix2 p k)) (max (s (ix1 p)) (Ideal.ofBits .f32 0x3F800000#32)) := fun k => by
    show Ideal.div (G (ix2 p k)) (broadcastInDim S128x128 ![0, 1] bcast_S128x1_S128x128_0_1 (broadcastInDim S128x1 ![0] bcast_S128_S128x1_0
          (maximumf s (broadcastInDim S128 ![] bcast_S_S128 (constant (F := Ideal) S_ .f32 0x3F800000#32)))) (ix2 p k)) = _
    rw [spreadColPool_apply, colPool_apply, maximumf_apply, spreadScalarPool_apply, constant_apply]
  rw [Finset.sum_congr rfl fun k _ => by rw [hdiv k]]

end Cert.ReferenceIdeal.Dense

end
-- ==== Proof.Bridge.lean ====
/-
  The reference's result is the kernel program's value function of the same arguments.

  The reference's composed term is the host chain (gathers and scatters of the edge list and of the batch vector) around three
  dense stretches. Each dense stretch is the specification's function (`Cert.ReferenceIdeal.Dense.layer_eq`, `pool_eq`); what is
  left differs from the kernel program's value function only in spelling: the kernel narrows each transposed weight to bf16,
  which is the identity on the extended reals, and makes a bias a row by a reshape where the reference spreads it along a new
  leading axis, which read the same at `(0, q)`; the gathers, the scatters and the index arithmetic are the same operations with
  the same dimension numbers, applied to the same values, and are never opened.
-/
import proofs.«110979_j39977555591470_1_alg».proof.Proof.Gen.ReferenceIdeal.Run
import proofs.«110979_j39977555591470_1_alg».proof.Proof.RefDense
import proofs.«110979_j39977555591470_1_alg».proof.Proof.KValue
import Idealize.ShloMosaic.Lib.Pipeline.Value
import Idealize.ShloMosaic.Lib.ValueLayout

noncomputable section

namespace Cert.Bridge

open Idealize.ShloMosaic Idealize.ShloMosaic.TcCoe Idealize.SL.Sem Idealize.ShloMosaic.ValueIdx

/-! ## The spelling differences, over abstract arrays -/

/-- Narrowing to bf16 is the identity on the extended reals, so the kernel's transposed weight is the reference's. -/
theorem wT_eq (w : FVec Ideal Cert.KernelIdeal.S128x128 .f32) :
    (Cert.KernelIdeal.Value.wT w : Cert.KernelIdeal.S128x128.Idx → EReal)
      = (transpose Cert.ReferenceIdeal.S128x128 [1, 0] w Cert.ReferenceIdeal.Gen.transposes_S128x128_S128x128_1_0 : Cert.ReferenceIdeal.S128x128.Idx → EReal) := rfl

/-- A vector of 128 reshaped to a `1 × 128` row and the same vector spread along a new leading axis read the same: the
    vector at `q`, at `(0, q)`. -/
theorem bRow_eq (b : FVec Ideal Cert.KernelIdeal.S128 .f32) :
    Cert.KernelIdeal.Value.bRow b = broadcastInDim Cert.ReferenceIdeal.S1x128 ![1] Cert.ReferenceIdeal.Gen.bcast_S128_S1x128_1 b := by
  funext i
  obtain ⟨r, q, rfl⟩ : ∃ (r : Fin 1) (q : Fin 128), i = ix2 r q := ⟨i 0, i 1, eq_ix2 i⟩
  unfold Cert.KernelIdeal.Value.bRow
  rw [shapeCast_a_1a_apply]
  exact (broadcastInDim_apply _ Cert.ReferenceIdeal.Gen.bcast_S128_S1x128_1 b (ix2 r q) (ix1 q) (fun a => match a with
    | ⟨0, _⟩ => by show q.val = if (128 : Nat) = 1 then 0 else q.val; rw [if_neg (by omega)])).symm

/-- The two programs spell the same dimension numbers for each gather and scatter. -/
theorem scatterRows_eq : Cert.KernelIdeal.scatter_S50000x128_S800000x1_S800000x128_1_0_0_1
    = Cert.ReferenceIdeal.scatter_S50000x128_S800000x1_S800000x128_1_0_0_1 := rfl
theorem scatterDeg_eq : Cert.KernelIdeal.scatter_S50000_S800000x1_S800000_n_0_0_1
    = Cert.ReferenceIdeal.scatter_S50000_S800000x1_S800000_n_0_0_1 := rfl
theorem gatherRows_eq : Cert.KernelIdeal.gather_S50000x128_S800000x1_S800000x128_1_0_n_n_0_1_1128
    = Cert.ReferenceIdeal.gather_S50000x128_S800000x1_S800000x128_1_0_n_n_0_1_1128 := rfl
theorem scatterPool_eq : Cert.KernelIdeal.scatter_S128x128_S50000x1_S50000x128_1_0_0_1
    = Cert.ReferenceIdeal.scatter_S128x128_S50000x1_S50000x128_1_0_0_1 := rfl
theorem scatterCnt_eq : Cert.KernelIdeal.scatter_S128_S50000x1_S50000_n_0_0_1
    = Cert.ReferenceIdeal.scatter_S128_S50000x1_S50000_n_0_0_1 := rfl

set_option maxRecDepth 8192 in
/-- The reference's result term, for any memory, is the kernel program's value function of the argument arrays in that memory. -/
theorem ref_eq_kernel (m' : (ℓ : Loc Cert.ReferenceIdeal.nD Cert.ReferenceIdeal.τ Cert.ReferenceIdeal.sig) → Buf (Elt Ideal) ℓ)
    (c : Dev Cert.ReferenceIdeal.nD) :
    (Cert.ReferenceIdeal.Value.res_main_v76 (F := Ideal) m' c : FVec Ideal Cert.KernelIdeal.S128x128 .f32)
      = Cert.KernelIdeal.Value.result (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))
          (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9))
          (m' ((c.tc : Thread Cert.ReferenceIdeal.nD Cert.ReferenceIdeal.τ).loc Cert.ReferenceIdeal.main_arg10)) := by
  unfold Cert.ReferenceIdeal.Value.res_main_v76
  -- the three dense stretches are the specification's functions: the outer layer first, then the inner one (both its copies)
  rw [Cert.ReferenceIdeal.Dense.layer_eq, Cert.ReferenceIdeal.Dense.layer_eq, Cert.ReferenceIdeal.Dense.pool_eq]
  unfold Cert.KernelIdeal.Value.result Cert.KernelIdeal.Value.layer Cert.KernelIdeal.Value.gsum Cert.KernelIdeal.Value.gcntCol Cert.KernelIdeal.Value.gcnt Cert.KernelIdeal.Value.agg Cert.KernelIdeal.Value.degCol Cert.KernelIdeal.Value.srcIdx Cert.KernelIdeal.Value.dstIdx
  -- the transposed weights and the bias rows, in the reference's spelling
  rw [wT_eq, wT_eq, wT_eq, wT_eq, wT_eq, bRow_eq, bRow_eq, bRow_eq]
  -- the dimension numbers, in the reference's spelling
  rw [scatterRows_eq, scatterDeg_eq, gatherRows_eq, scatterPool_eq, scatterCnt_eq]

end Cert.Bridge

end
-- ==== Proof.lean ====
/-
  The certificate of a two-layer mean-aggregation SAGE network with a global mean pool and a linear classifier: a Pallas
  program of three pallas_calls among host gathers and scatters, against its jnp reference, on the extended reals.

  Both programs gather the node features at each edge's source and scatter them onto its destination, count each node's
  in-degree the same way, and later sum nodes per graph; those host operations are the same operations on the same values in
  both programs and are carried along unopened. What differs is where the dense arithmetic runs. The reference computes, for
  all 50000 rows at once,  relu((agg / max(deg, 1)) · wlᵀ + b + h · wrᵀ)  and, for the 128 graphs,
  (gsum / max(gcnt, 1)) · cwᵀ + cb.  The kernel program runs the first in a ten-point grid over blocks of 5000 rows (with the
  operands of each product narrowed to bf16, which on the extended reals changes nothing, and the sum grouped as
  (agg/deg · wlᵀ + h · wrᵀ) + b), twice, and the second in a one-point grid. Entry by entry each is a sum over 128 terms per
  product, and the two groupings of the three summands agree because addition of extended reals is commutative and associative:
  no finiteness of the inputs is used, so the precondition is never opened.

  The pieces: `Cert.Sage` (the two functions entry by entry), `Cert.KernelIdeal.Payload` (each kernel body stores that
  function of its blocks), `Cert.KernelIdeal.Region0/1/2` (each call leaves that function of the whole arrays: its blocks
  tile the rows), `Cert.KernelIdeal.Fold` (the buffers along the run read back to the arguments, the result array at
  `Cert.KernelIdeal.Value.result`), `Cert.ReferenceIdeal.Dense` and `Cert.Bridge` (the reference's result is the same
  function of the same arguments). The three frames are the programs' runs with the results dropped; the idealization rewrote
  nothing, so `preserves` asks nothing.
-/
import proofs.«110979_j39977555591470_1_alg».proof.Defs
import proofs.«110979_j39977555591470_1_alg».proof.Proof.Gen.Kernel
import proofs.«110979_j39977555591470_1_alg».proof.Proof.KernelFrame
import proofs.«110979_j39977555591470_1_alg».proof.Proof.Gen.KernelIdeal
import proofs.«110979_j39977555591470_1_alg».proof.Proof.KernelIdealFrame
import proofs.«110979_j39977555591470_1_alg».proof.Proof.KernelIdealRun
import proofs.«110979_j39977555591470_1_alg».proof.Proof.KFold
import proofs.«110979_j39977555591470_1_alg».proof.Proof.Gen.ReferenceIdeal
import proofs.«110979_j39977555591470_1_alg».proof.Proof.Gen.ReferenceIdeal.Run
import proofs.«110979_j39977555591470_1_alg».proof.Proof.Bridge
import proofs.«110979_j39977555591470_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The word-level kernel program runs to the end from any memory, nothing faulting, its arguments unchanged. -/
theorem frame_kernel : Cert.frame_Kernel := fun m ρ _ => Cert.Kernel.GenP.frame m ρ

/-- So does its reading on the extended reals. -/
theorem frame_kernelIdeal : Cert.frame_KernelIdeal := fun m ρ _ => Cert.KernelIdeal.GenP.frame m ρ

/-- The reference is host operations only: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the same result array: the kernel program's run ends
    with its result at the fold's last contents, which is the value function of the arguments; the reference's run ends at its
    composed term, which is the same function of its arguments; and the arguments agree. -/
theorem algebraic : Cert.algebraic_KernelIdeal_ReferenceIdeal := by
  intro m ρ m' ρ' _ hagree
  refine ⟨fun c => Cert.KernelIdeal.GenP.W6 m ρ c (Proc.devRef .tc Cert.KernelIdeal.main_v54),
    Cert.KernelIdeal.GenP.run_result (F := Ideal) m ρ, ?_⟩
  refine (θ_run Cert.ReferenceIdeal.defs _ _).mono (fun _ h c => ⟨(h c).1.trans ?_, (h c).2⟩)
    (Cert.ReferenceIdeal.Value.run (F := Ideal) m' ρ')
  refine ((Cert.Bridge.ref_eq_kernel m' c).trans ?_).trans (Cert.KernelIdeal.Fold.W6_result m ρ c).symm
  obtain ⟨h0, h1, h2, h3, h4, h5, h6, h7, h8, h9, h10⟩ := hagree c
  rw [h0, h1, h2, h3, h4, h5, h6, h7, h8, h9, h10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
